-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part5 {F : FTy → Type} [FloatOps F] (main_arg18 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048x2048 .f32) (main_arg15 : FVec F S2048x2048 .f32) (main_arg16 : FVec F S2048x2048 .f32) (main_arg17 : FVec F S2048 .f32) (main_arg18 : FVec F S2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048x2048 .f32 := Host.absf main_arg16
  let main_cst_30 : FVec F S_ .f32 := constant S_ .f32 0x7F800000#32
  let main_v80 : FVec F S2048x2048 .f32 := broadcastInDim S2048x2048 ![] bcast_S_S2048x2048 main_cst_30
  let main_v81 : IVec S2048x2048 1 := cmpf .olt main_v79 main_v80
  let main_c_31 : IVec S_ 1 := constantI S_ 1 1#1
  let main_v82 : IVec S_ 1 := (fun x v => Host.reduce IntOp.andi x v reducesTo_S2048x2048_S_d0_1 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S4096x2048 .f32) (main_arg5 : FVec F S2048x1024 .f32) (main_arg6 : FVec F S2048x1024 .f32) (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S4096x2048 .f32) (main_arg5 : FVec F S2048x1024 .f32) (main_arg6 : FVec F S2048x1024 .f32) (main_arg7 : FVec F S2048x1024 .f32) (main_arg8 : FVec F S2048x1024 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_arg17 : FVec F S2048 .f32) (main_arg18 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192 : Shape := ⟨1, ![8192]⟩
abbrev S8192x2048 : Shape := ⟨2, ![8192, 2048]⟩
abbrev S4096x3072 : Shape := ⟨2, ![4096, 3072]⟩
abbrev S8192x3072 : Shape := ⟨2, ![8192, 3072]⟩
abbrev S1x8192 : Shape := ⟨2, ![1, 8192]⟩
abbrev S1x2048 : Shape := ⟨2, ![1, 2048]⟩
abbrev S256x256 : Shape := ⟨2, ![256, 256]⟩
abbrev S8192x256 : Shape := ⟨2, ![8192, 256]⟩
abbrev S256x2048 : Shape := ⟨2, ![256, 2048]⟩
abbrev S256x8192 : Shape := ⟨2, ![256, 8192]⟩
abbrev S256 : Shape := ⟨1, ![256]⟩
abbrev S256x1 : Shape := ⟨2, ![256, 1]⟩

abbrev nBuf : Space → Nat
  | .hbm => 32
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048, .f32⟩
  | .hbm, ⟨18, _⟩ => ⟨S2048, .f32⟩
  | .hbm, ⟨19, _⟩ => ⟨S8192x1024, .f32⟩
  | .hbm, ⟨20, _⟩ => ⟨S8192, .f32⟩
  | .hbm, ⟨21, _⟩ => ⟨S8192x2048, .f32⟩
  | .hbm, ⟨22, _⟩ => ⟨S4096x3072, .f32⟩
  | .hbm, ⟨23, _⟩ => ⟨S8192x3072, .f32⟩
  | .hbm, ⟨24, _⟩ => ⟨S8192x3072, .bf16⟩
  | .hbm, ⟨25, _⟩ => ⟨S1x8192, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S8192x256, .bf16⟩
  | .local _ .vmem, ⟨4, _⟩ => ⟨S1x8192, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

class Facts₀ : Prop where
  concatenates_S2048x1024_S2048x1024_S2048x1024_S2048x1024_S8192x1024_d0 : Shape.Concatenates [S2048x1024, S2048x1024, S2048x1024, S2048x1024] S8192x1024 0
  concatenates_S2048_S2048_S2048_S2048_S8192_d0 : Shape.Concatenates [S2048, S2048, S2048, S2048] S8192 0
  concatenates_S2048x2048_S2048x2048_S2048x2048_S2048x2048_S8192x2048_d0 : Shape.Concatenates [S2048x2048, S2048x2048, S2048x2048, S2048x2048] S8192x2048 0
  concatenates_S4096x1024_S4096x2048_S4096x3072_d1 : Shape.Concatenates [S4096x1024, S4096x2048] S4096x3072 1
  concatenates_S8192x1024_S8192x2048_S8192x3072_d1 : Shape.Concatenates [S8192x1024, S8192x2048] S8192x3072 1
  bitsLt_bf16_f32 : FTy.bits .bf16 < FTy.bits .f32
  shapeCasts_S8192_S1x8192 : S8192.ShapeCasts S1x8192
  shapeCasts_S2048_S1x2048 : S2048.ShapeCasts S1x2048
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x8192_S256x2048_0_0 : ∀ a, (![0, 0] : Fin 2 → Nat) a + S256x2048.size a ≤ S256x8192.size a
  h_S256x2048 : 0 < S256x2048.numel
  inb_S1x8192_S1x2048_0_0 : ∀ a, (![0, 0] : Fin 2 → Nat) a + S1x2048.size a ≤ S1x8192.size a
  h_S1x2048 : 0 < S1x2048.numel
  shapeCasts_S1x2048_S1x2048 : S1x2048.ShapeCasts S1x2048
  broadcasts_S1x2048_S256x2048 : S1x2048.Broadcasts S256x2048
  inb_S256x8192_S256x2048_0_2048 : ∀ a, (![0, 2048] : Fin 2 → Nat) a + S256x2048.size a ≤ S256x8192.size a
  inb_S1x8192_S1x2048_0_2048 : ∀ a, (![0, 2048] : Fin 2 → Nat) a + S1x2048.size a ≤ S1x8192.size a
  inb_S256x8192_S256x2048_0_4096 : ∀ a, (![0, 4096] : Fin 2 → Nat) a + S256x2048.size a ≤ S256x8192.size a
  inb_S1x8192_S1x2048_0_4096 : ∀ a, (![0, 4096] : Fin 2 → Nat) a + S1x2048.size a ≤ S1x8192.size a
  inb_S256x8192_S256x2048_0_6144 : ∀ a, (![0, 6144] : Fin 2 → Nat) a + S256x2048.size a ≤ S256x8192.size a
  inb_S1x8192_S1x2048_0_6144 : ∀ a, (![0, 6144] : Fin 2 → Nat) a + S1x2048.size a ≤ S1x8192.size a
  inb_S256x2048_S256x2048_0_0 : ∀ a, (![0, 0] : Fin 2 → Nat) a + S256x2048.size a ≤ S256x2048.size a
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x3072.size a
  hwx0_0 : ∀ i : grid0.Coords, EltTy.bits .f32 = 32 ∨ (Rect.block (s := S4096x3072) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x3072.size a
  hwx0_1 : ∀ i : grid0.Coords, EltTy.bits .bf16 = 32 ∨ (Rect.block (s := S8192x3072) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S4096x2048.size a
  hwx0_9 : ∀ i : grid0.Coords, EltTy.bits .f32 = 32 ∨ (Rect.block (s := S4096x2048) S256x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S4096x2048.size a
  hwx0_10 : ∀ i : grid0.Coords, EltTy.bits .f32 = 32 ∨ (Rect.block (s := S4096x2048) S256x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S4096x2048.size a
  hwx0_11 : ∀ i : grid0.Coords, EltTy.bits .f32 = 32 ∨ (Rect.block (s := S4096x2048) S256x2048.size (cc0_transform_11 i) (hinb0_11 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v3) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S256x2048.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S256x2048.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S256x2048.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_3) S256x2048.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192 : Shape := ⟨1, ![8192]⟩
abbrev S8192x2048 : Shape := ⟨2, ![8192, 2048]⟩
abbrev S1024x8192 : Shape := ⟨2, ![1024, 8192]⟩
abbrev S4096x8192 : Shape := ⟨2, ![4096, 8192]⟩
abbrev S1x8192 : Shape := ⟨2, ![1, 8192]⟩
abbrev S2048x8192 : Shape := ⟨2, ![2048, 8192]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048, .f32⟩
  | .hbm, ⟨18, _⟩ => ⟨S2048, .f32⟩
  | .hbm, ⟨19, _⟩ => ⟨S8192x1024, .f32⟩
  | .hbm, ⟨20, _⟩ => ⟨S8192, .f32⟩
  | .hbm, ⟨21, _⟩ => ⟨S8192x2048, .f32⟩
  | .hbm, ⟨22, _⟩ => ⟨S1024x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S2048x8192, .f32⟩
  | .hbm, ⟨28, _⟩ => ⟨S4096x8192, .f32⟩
  | .hbm, ⟨29, _⟩ => ⟨S4096x8192, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x2048, .f32⟩
  | .hbm, ⟨89, _⟩ => ⟨S4096x2048, .f32⟩
  | .hbm, ⟨90, _⟩ => ⟨S1x2048, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048_S2048_S2048_S2048_S8192_d0 : Shape.Concatenates [S2048, S2048, S2048, S2048] S8192 0
  concatenates_S2048x2048_S2048x2048_S2048x2048_S2048x2048_S8192x2048_d0 : Shape.Concatenates [S2048x2048, S2048x2048, S2048x2048, S2048x2048] S8192x2048 0
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S8192x2048_S2048x8192_1_0 : S8192x2048.Transposes [1, 0] S2048x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Kernel.Kit.lean ====
/-
  The program's @main is nine host operations (five concatenations, a conversion, three reshapes) and then the
  one kernel region. This module fixes what the region finds: core c's buffers after the host operations (V), each
  argument array untouched by them, each window's block at a grid point (iblk), that an input window's staging
  buffer holds its block at every point, and how a run of the whole program to the pipeline's frame post gives
  back the nineteen argument arrays unchanged.
-/
import proofs.«122402_j2551210574034_1_alg».proof.Proof.Gen.Kernel.Launch
import proofs.«122402_j2551210574034_1_alg».proof.Proof.Gen.Kernel.Skeleton
import proofs.«122402_j2551210574034_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: after the nine host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the nine host operations writes is found as launched. Every host operation writes only its own
    result buffer, and those are main_v0 … main_v8. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    obtain ⟨h0, h1, h2, h3, h4, h5, h6, h7, h8⟩ := hb
    simp only [hostOps0, List.Forall, StableHlo.nary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)
theorem V_main_arg9 (c : Dev nD) : V m c main_arg9 = m ((c : Thread nD τ).loc main_arg9) := V_of_not_written m c main_arg9 (by decide)
theorem V_main_arg10 (c : Dev nD) : V m c main_arg10 = m ((c : Thread nD τ).loc main_arg10) := V_of_not_written m c main_arg10 (by decide)
theorem V_main_arg11 (c : Dev nD) : V m c main_arg11 = m ((c : Thread nD τ).loc main_arg11) := V_of_not_written m c main_arg11 (by decide)
theorem V_main_arg12 (c : Dev nD) : V m c main_arg12 = m ((c : Thread nD τ).loc main_arg12) := V_of_not_written m c main_arg12 (by decide)
theorem V_main_arg13 (c : Dev nD) : V m c main_arg13 = m ((c : Thread nD τ).loc main_arg13) := V_of_not_written m c main_arg13 (by decide)
theorem V_main_arg14 (c : Dev nD) : V m c main_arg14 = m ((c : Thread nD τ).loc main_arg14) := V_of_not_written m c main_arg14 (by decide)
theorem V_main_arg15 (c : Dev nD) : V m c main_arg15 = m ((c : Thread nD τ).loc main_arg15) := V_of_not_written m c main_arg15 (by decide)
theorem V_main_arg16 (c : Dev nD) : V m c main_arg16 = m ((c : Thread nD τ).loc main_arg16) := V_of_not_written m c main_arg16 (by decide)
theorem V_main_arg17 (c : Dev nD) : V m c main_arg17 = m ((c : Thread nD τ).loc main_arg17) := V_of_not_written m c main_arg17 (by decide)
theorem V_main_arg18 (c : Dev nD) : V m c main_arg18 = m ((c : Thread nD τ).loc main_arg18) := V_of_not_written m c main_arg18 (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data whose
    array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data whose
    array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data whose
    array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- From a run to the pipeline's frame post (every window's array at what the proof data computes, every other unscoped
    buffer as the region found it): the nineteen argument arrays end as launched. Three of them (c_prev, n_prev, m_prev)
    are input windows' arrays; the other sixteen are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.Kernel.Fr

end
-- ==== Proof.Kernel.Runs.lean ====
/-
  What the three runs of the kernel body share. The body branches twice on the second grid coordinate k (of 12):
  at k = 0 it zeroes the accumulator before adding the slice's product, at k = 11 it finishes the cell and stores the
  four results. So a grid point is in one of three cases: A (k = 0), B (0 < k < 11), C (k = 11); in the row-major
  order of the 16 × 12 grid these are the points ≡ 0, ≡ 1 … 10, ≡ 11 (mod 12). The four output windows are stored
  only in case C and are idle (and not written back) at the other points.
-/
import proofs.«122402_j2551210574034_1_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions -/

/-- The first `scf.if`'s condition (k = 0) from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- The second `scf.if`'s condition (k = 11). -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- The one staging buffer of output window 8, as a view: its contents are stated through it. -/
abbrev VO0_8 : View sig .tc .vmem S256x2048 .f32 := (Memref.whole cc0_stg8_0 : Memref sig .tc .vmem S256x2048 .f32).view
/-- The one staging buffer of output window 9, as a view: its contents are stated through it. -/
abbrev VO0_9 : View sig .tc .vmem S256x2048 .f32 := (Memref.whole cc0_stg9_0 : Memref sig .tc .vmem S256x2048 .f32).view
/-- The one staging buffer of output window 10, as a view: its contents are stated through it. -/
abbrev VO0_10 : View sig .tc .vmem S256x2048 .f32 := (Memref.whole cc0_stg10_0 : Memref sig .tc .vmem S256x2048 .f32).view
/-- The one staging buffer of output window 11, as a view: its contents are stated through it. -/
abbrev VO0_11 : View sig .tc .vmem S256x2048 .f32 := (Memref.whole cc0_stg11_0 : Memref sig .tc .vmem S256x2048 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2048 .f32 := win0_11.stage (cfg0.slots t 11)
abbrev hs0_11 (t : Fin cfg0.N) : (ms0_11 t).IsWhole := hstage0_11 ((cfg0.slots t 11).cast nbuf0_11)
/-- The accumulator: a whole scoped buffer of the kernel's own, carried from point to point. -/
abbrev scM0_0 : Memref sig .tc .vmem S256x8192 .f32 := Memref.whole cc0_scratch0
abbrev VS0_0 : View sig .tc .vmem S256x8192 .f32 := scM0_0.view

/-- The region invariant of a kernel with scratch: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.Kernel.RunA.lean ====
/-
  The kernel body run once, symbolically, in case A (k = 0: the accumulator is zeroed, then the slice's product added).
  On whole staging buffers — the eight inputs at their contents, the four idle outputs at contents handed back untouched, the accumulator at
  anything — the body runs to its end, every access in bounds, leaving the inputs as they were and each buffer it
  stored into with the pieces written that the run finds.
-/
import proofs.«122402_j2551210574034_1_alg».proof.Proof.Kernel.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, fun xi8 xi9 xi10 xi11 E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.Kernel.RunB.lean ====
/-
  The kernel body run once, symbolically, in case B (0 < k < 11: the slice's product is added to the accumulator).
  On whole staging buffers — the eight inputs at their contents, the four idle outputs at contents handed back untouched, the accumulator at
  what the point before left — the body runs to its end, every access in bounds, leaving the inputs as they were and each buffer it
  stored into with the pieces written that the run finds.
-/
import proofs.«122402_j2551210574034_1_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, fun xi8 xi9 xi10 xi11 E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.Kernel.RunC.lean ====
/-
  The kernel body run once, symbolically, in case C (k = 11: the slice's product is added, then the cell is finished and the four results stored).
  On whole staging buffers — the eight inputs at their contents, the four outputs at anything, the accumulator at
  what the point before left — the body runs to its end, every access in bounds, leaving the inputs as they were and each buffer it
  stored into with the pieces written that the run finds.
-/
import proofs.«122402_j2551210574034_1_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact HS0

end Cert.Kernel.Fr

end
-- ==== Proof.Kernel.Frame.lean ====
/-
  The frame of the program: the kernel region run at all 192 grid points. What each output's staging buffer and the
  accumulator hold after each point is defined by recursion on the point (outsAt0): the case the point is in, run on
  the point's input blocks, in cases B and C over what the point before left in the accumulator. The accumulator's
  contents ride the region invariant from point to point. With the body's run in each case this gives the body
  obligation at every point, the run of the whole program, and the frame: it terminates, faults nowhere, and leaves
  the nineteen argument arrays as launched.
-/
import proofs.«122402_j2551210574034_1_alg».proof.Proof.Kernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers the body stores into, read back from the pieces a run found: the four outputs' staging buffers and the accumulator. -/
def packOuts (L8 L9 L10 L11 : List (View.Piece (Elt F) S256x2048 .f32)) (LS0 : List (View.Piece (Elt F) S256x8192 .f32)) : Vec F S256x2048 .f32 × Vec F S256x2048 .f32 × Vec F S256x2048 .f32 × Vec F S256x2048 .f32 × Vec F S256x8192 .f32 :=
  (VO0_8.read (Elt F) (VO0_8.writes (Elt F) VO0_8.junk L8), VO0_9.read (Elt F) (VO0_9.writes (Elt F) VO0_9.junk L9),
   VO0_10.read (Elt F) (VO0_10.writes (Elt F) VO0_10.junk L10), VO0_11.read (Elt F) (VO0_11.writes (Elt F) VO0_11.junk L11),
   VS0_0.read (Elt F) (VS0_0.writes (Elt F) VS0_0.junk LS0))

/-- The body's run at a point of case A, on the point's staging buffers and input blocks. -/
abbrev runA (c : Dev nD) (t : Fin cfg0.N) (h0 : t.val % 12 = 0) (h1 : ¬t.val % 12 = 11) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
/-- At a point of case B, over the accumulator's contents `xs`. -/
abbrev runB (c : Dev nD) (t : Fin cfg0.N) (h0 : ¬t.val % 12 = 0) (h1 : ¬t.val % 12 = 11) (xs : Vec F S256x8192 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs
/-- At a point of case C, over the accumulator's contents `xs`. -/
abbrev runC (c : Dev nD) (t : Fin cfg0.N) (h0 : ¬t.val % 12 = 0) (h1 : t.val % 12 = 11) (xs : Vec F S256x8192 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs

/-! ## The pieces cover what they are stored into -/

theorem scover0_A (c : Dev nD) (t : Fin cfg0.N) (h0 : t.val % 12 = 0) (h1 : ¬t.val % 12 = 11) (y : S256x8192.Idx) :
    ∃ pc ∈ (runA m c t h0 h1).2.2.2.2.1, y ∈ pc.1.set :=
  View.cover_of_tiledL (runA m c t h0 h1).2.2.2.2.1 S256x8192.size (by sl_kernel_rfl) y
theorem scover0_B (c : Dev nD) (t : Fin cfg0.N) (h0 : ¬t.val % 12 = 0) (h1 : ¬t.val % 12 = 11) (xs : Vec F S256x8192 .f32) (y : S256x8192.Idx) :
    ∃ pc ∈ (runB m c t h0 h1 xs).2.2.2.2.1, y ∈ pc.1.set :=
  View.cover_of_tiledL (runB m c t h0 h1 xs).2.2.2.2.1 S256x8192.size (by sl_kernel_rfl) y
theorem scover0_C (c : Dev nD) (t : Fin cfg0.N) (h0 : ¬t.val % 12 = 0) (h1 : t.val % 12 = 11) (xs : Vec F S256x8192 .f32) (y : S256x8192.Idx) :
    ∃ pc ∈ (runC m c t h0 h1 xs).2.2.2.2.1, y ∈ pc.1.set :=
  View.cover_of_tiledL (runC m c t h0 h1 xs).2.2.2.2.1 S256x8192.size (by sl_kernel_rfl) y
theorem cover0_C_8 (c : Dev nD) (t : Fin cfg0.N) (h0 : ¬t.val % 12 = 0) (h1 : t.val % 12 = 11) (xs : Vec F S256x8192 .f32) (y : S256x2048.Idx) :
    ∃ pc ∈ (runC m c t h0 h1 xs).1, y ∈ pc.1.set :=
  View.cover_of_tiledL (runC m c t h0 h1 xs).1 S256x2048.size (by sl_kernel_rfl) y
theorem cover0_C_9 (c : Dev nD) (t : Fin cfg0.N) (h0 : ¬t.val % 12 = 0) (h1 : t.val % 12 = 11) (xs : Vec F S256x8192 .f32) (y : S256x2048.Idx) :
    ∃ pc ∈ (runC m c t h0 h1 xs).2.1, y ∈ pc.1.set :=
  View.cover_of_tiledL (runC m c t h0 h1 xs).2.1 S256x2048.size (by sl_kernel_rfl) y
theorem cover0_C_10 (c : Dev nD) (t : Fin cfg0.N) (h0 : ¬t.val % 12 = 0) (h1 : t.val % 12 = 11) (xs : Vec F S256x8192 .f32) (y : S256x2048.Idx) :
    ∃ pc ∈ (runC m c t h0 h1 xs).2.2.1, y ∈ pc.1.set :=
  View.cover_of_tiledL (runC m c t h0 h1 xs).2.2.1 S256x2048.size (by sl_kernel_rfl) y
theorem cover0_C_11 (c : Dev nD) (t : Fin cfg0.N) (h0 : ¬t.val % 12 = 0) (h1 : t.val % 12 = 11) (xs : Vec F S256x8192 .f32) (y : S256x2048.Idx) :
    ∃ pc ∈ (runC m c t h0 h1 xs).2.2.2.1, y ∈ pc.1.set :=
  View.cover_of_tiledL (runC m c t h0 h1 xs).2.2.2.1 S256x2048.size (by sl_kernel_rfl) y

/-! ## What the buffers hold after each point -/

def outsOfA (c : Dev nD) (t : Fin cfg0.N) (h0 : t.val % 12 = 0) (h1 : ¬t.val % 12 = 11) : Vec F S256x2048 .f32 × Vec F S256x2048 .f32 × Vec F S256x2048 .f32 × Vec F S256x2048 .f32 × Vec F S256x8192 .f32 :=
  packOuts (runA m c t h0 h1).1 (runA m c t h0 h1).2.1 (runA m c t h0 h1).2.2.1 (runA m c t h0 h1).2.2.2.1 (runA m c t h0 h1).2.2.2.2.1
def outsOfB (c : Dev nD) (t : Fin cfg0.N) (h0 : ¬t.val % 12 = 0) (h1 : ¬t.val % 12 = 11) (xs : Vec F S256x8192 .f32) : Vec F S256x2048 .f32 × Vec F S256x2048 .f32 × Vec F S256x2048 .f32 × Vec F S256x2048 .f32 × Vec F S256x8192 .f32 :=
  packOuts (runB m c t h0 h1 xs).1 (runB m c t h0 h1 xs).2.1 (runB m c t h0 h1 xs).2.2.1 (runB m c t h0 h1 xs).2.2.2.1 (runB m c t h0 h1 xs).2.2.2.2.1
def outsOfC (c : Dev nD) (t : Fin cfg0.N) (h0 : ¬t.val % 12 = 0) (h1 : t.val % 12 = 11) (xs : Vec F S256x8192 .f32) : Vec F S256x2048 .f32 × Vec F S256x2048 .f32 × Vec F S256x2048 .f32 × Vec F S256x2048 .f32 × Vec F S256x8192 .f32 :=
  packOuts (runC m c t h0 h1 xs).1 (runC m c t h0 h1 xs).2.1 (runC m c t h0 h1 xs).2.2.1 (runC m c t h0 h1 xs).2.2.2.1 (runC m c t h0 h1 xs).2.2.2.2.1

/-- After the body at position n: the four outputs' staging buffers (placeholders in cases A and B, where they are idle) and the accumulator. -/
def outsAt0 (c : Dev nD) : (n : ℕ) → n < cfg0.N → Vec F S256x2048 .f32 × Vec F S256x2048 .f32 × Vec F S256x2048 .f32 × Vec F S256x2048 .f32 × Vec F S256x8192 .f32
  | 0, hn => outsOfA m c ⟨0, hn⟩ (Nat.zero_mod _) (fun h => absurd ((Nat.zero_mod 12).symm.trans h) (by decide))
  | n + 1, hn =>
    if h0 : (n + 1) % 12 = 0 then
      if h1 : (n + 1) % 12 = 11 then False.elim (by omega)
      else outsOfA m c ⟨n + 1, hn⟩ h0 h1
    else
      if h1 : (n + 1) % 12 = 11 then outsOfC m c ⟨n + 1, hn⟩ h0 h1 (outsAt0 c n (Nat.lt_of_succ_lt hn)).2.2.2.2
      else outsOfB m c ⟨n + 1, hn⟩ h0 h1 (outsAt0 c n (Nat.lt_of_succ_lt hn)).2.2.2.2

theorem outsAt0_A (c : Dev nD) (t : Fin cfg0.N) (h0 : t.val % 12 = 0) (h1 : ¬t.val % 12 = 11) :
    outsAt0 m c t.val t.isLt = outsOfA m c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 12 = 0) (h1 : ¬t.val % 12 = 11) :
    outsAt0 m c t.val t.isLt = outsOfB m c t h0 h1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 12 = 0) (h1 : t.val % 12 = 11) :
    outsAt0 m c t.val t.isLt = outsOfC m c t h0 h1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: at the start the scratch at anything; afterwards the accumulator at what the
    point before left in it. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point. The inputs' staging buffers hold their blocks; the point's position mod 12 says which case it is
    in; that case's run applies; the invariant hands the body the accumulator at what the point before left (at anything at
    the very first point) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 12 = 0
  · by_cases h1 : t.val % 12 = 11
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      rw [outsAt0_A m c t h0 h1]
      unfold outsOfA packOuts; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t h0 h1).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t h0 h1).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
  · have hz : t.val ≠ 0 := fun h => h0 (by rw [h])
    by_cases h1 : t.val % 12 = 11
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [show (dats m 0 c).leavesExact 9 t = owns (c : Thread nD τ) (ms0_9 t) fullShare ((dats m 0 c).after 9 t) from by
        unfold Dat.leavesExact; rw [liveAt0_9 t ((hcond0_1 t).mpr h1)], after0_9]
      rw [show (dats m 0 c).leavesExact 10 t = owns (c : Thread nD τ) (ms0_10 t) fullShare ((dats m 0 c).after 10 t) from by
        unfold Dat.leavesExact; rw [liveAt0_10 t ((hcond0_1 t).mpr h1)], after0_10]
      rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold outsOfC packOuts; (try dsimp only)
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runC m c t h0 h1 _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        iintro ⟨H0, H1, H2, H3, H4, H5, H6, H7, ⟨%e8, H8⟩, ⟨%e9, H9⟩, ⟨%e10, H10⟩, ⟨%e11, H11⟩, ⟨%es0, HS0⟩⟩
        isplitl [HS0 Hg]
        · isplitl [HS0]
          · unfold owns; iexists _; isplitr
            swap; · iexact HS0
            ipureintro; exact View.read_writes_of_cover _ _ _ _ _ (scover0_C m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 m c t h0 h1 _)
        isplitl [H9]
        · unfold owns; iexists _; isplitr
          swap; · iexact H9
          ipureintro; exact View.read_writes_of_cover _ _ _ _ _ (cover0_C_9 m c t h0 h1 _)
        isplitl [H10]
        · unfold owns; iexists _; isplitr
          swap; · iexact H10
          ipureintro; exact View.read_writes_of_cover _ _ _ _ _ (cover0_C_10 m c t h0 h1 _)
        unfold owns; iexists _; isplitr
        swap; · iexact H11
        ipureintro; exact View.read_writes_of_cover _ _ _ _ _ (cover0_C_11 m c t h0 h1 _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      rw [outsAt0_B m c t h0 h1]
      unfold outsOfB packOuts; (try dsimp only)
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runB m c t h0 h1 _).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_B m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.KernelIdeal.Kit.lean ====
/-
  The program's @main is nine host operations (five concatenations, a conversion, three reshapes) and then the
  one kernel region. This module fixes what the region finds: core c's buffers after the host operations (V), each
  argument array untouched by them, each window's block at a grid point (iblk), that an input window's staging
  buffer holds its block at every point, and how a run of the whole program to the pipeline's frame post gives
  back the nineteen argument arrays unchanged.
-/
import proofs.«122402_j2551210574034_1_alg».proof.Proof.Gen.KernelIdeal.Launch
import proofs.«122402_j2551210574034_1_alg».proof.Proof.Gen.KernelIdeal.Skeleton
import proofs.«122402_j2551210574034_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: after the nine host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the nine host operations writes is found as launched. Every host operation writes only its own
    result buffer, and those are main_v0 … main_v8. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    obtain ⟨h0, h1, h2, h3, h4, h5, h6, h7, h8⟩ := hb
    simp only [hostOps0, List.Forall, StableHlo.nary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)
theorem V_main_arg9 (c : Dev nD) : V m c main_arg9 = m ((c : Thread nD τ).loc main_arg9) := V_of_not_written m c main_arg9 (by decide)
theorem V_main_arg10 (c : Dev nD) : V m c main_arg10 = m ((c : Thread nD τ).loc main_arg10) := V_of_not_written m c main_arg10 (by decide)
theorem V_main_arg11 (c : Dev nD) : V m c main_arg11 = m ((c : Thread nD τ).loc main_arg11) := V_of_not_written m c main_arg11 (by decide)
theorem V_main_arg12 (c : Dev nD) : V m c main_arg12 = m ((c : Thread nD τ).loc main_arg12) := V_of_not_written m c main_arg12 (by decide)
theorem V_main_arg13 (c : Dev nD) : V m c main_arg13 = m ((c : Thread nD τ).loc main_arg13) := V_of_not_written m c main_arg13 (by decide)
theorem V_main_arg14 (c : Dev nD) : V m c main_arg14 = m ((c : Thread nD τ).loc main_arg14) := V_of_not_written m c main_arg14 (by decide)
theorem V_main_arg15 (c : Dev nD) : V m c main_arg15 = m ((c : Thread nD τ).loc main_arg15) := V_of_not_written m c main_arg15 (by decide)
theorem V_main_arg16 (c : Dev nD) : V m c main_arg16 = m ((c : Thread nD τ).loc main_arg16) := V_of_not_written m c main_arg16 (by decide)
theorem V_main_arg17 (c : Dev nD) : V m c main_arg17 = m ((c : Thread nD τ).loc main_arg17) := V_of_not_written m c main_arg17 (by decide)
theorem V_main_arg18 (c : Dev nD) : V m c main_arg18 = m ((c : Thread nD τ).loc main_arg18) := V_of_not_written m c main_arg18 (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data whose
    array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data whose
    array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data whose
    array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- From a run to the pipeline's frame post (every window's array at what the proof data computes, every other unscoped
    buffer as the region found it): the nineteen argument arrays end as launched. Three of them (c_prev, n_prev, m_prev)
    are input windows' arrays; the other sixteen are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.KernelIdeal.Fr

end
-- ==== Proof.KernelIdeal.Runs.lean ====
/-
  What the three runs of the kernel body share. The body branches twice on the second grid coordinate k (of 12):
  at k = 0 it zeroes the accumulator before adding the slice's product, at k = 11 it finishes the cell and stores the
  four results. So a grid point is in one of three cases: A (k = 0), B (0 < k < 11), C (k = 11); in the row-major
  order of the 16 × 12 grid these are the points ≡ 0, ≡ 1 … 10, ≡ 11 (mod 12). The four output windows are stored
  only in case C and are idle (and not written back) at the other points.
-/
import proofs.«122402_j2551210574034_1_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions -/

/-- The first `scf.if`'s condition (k = 0) from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- The second `scf.if`'s condition (k = 11). -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- The one staging buffer of output window 8, as a view: its contents are stated through it. -/
abbrev VO0_8 : View sig .tc .vmem S256x2048 .f32 := (Memref.whole cc0_stg8_0 : Memref sig .tc .vmem S256x2048 .f32).view
/-- The one staging buffer of output window 9, as a view: its contents are stated through it. -/
abbrev VO0_9 : View sig .tc .vmem S256x2048 .f32 := (Memref.whole cc0_stg9_0 : Memref sig .tc .vmem S256x2048 .f32).view
/-- The one staging buffer of output window 10, as a view: its contents are stated through it. -/
abbrev VO0_10 : View sig .tc .vmem S256x2048 .f32 := (Memref.whole cc0_stg10_0 : Memref sig .tc .vmem S256x2048 .f32).view
/-- The one staging buffer of output window 11, as a view: its contents are stated through it. -/
abbrev VO0_11 : View sig .tc .vmem S256x2048 .f32 := (Memref.whole cc0_stg11_0 : Memref sig .tc .vmem S256x2048 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2048 .f32 := win0_11.stage (cfg0.slots t 11)
abbrev hs0_11 (t : Fin cfg0.N) : (ms0_11 t).IsWhole := hstage0_11 ((cfg0.slots t 11).cast nbuf0_11)
/-- The accumulator: a whole scoped buffer of the kernel's own, carried from point to point. -/
abbrev scM0_0 : Memref sig .tc .vmem S256x8192 .f32 := Memref.whole cc0_scratch0
abbrev VS0_0 : View sig .tc .vmem S256x8192 .f32 := scM0_0.view

/-- The region invariant of a kernel with scratch: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdeal.RunA.lean ====
/-
  The kernel body run once, symbolically, in case A (k = 0: the accumulator is zeroed, then the slice's product added).
  On whole staging buffers — the eight inputs at their contents, the four idle outputs at contents handed back untouched, the accumulator at
  anything — the body runs to its end, every access in bounds, leaving the inputs as they were and each buffer it
  stored into with the pieces written that the run finds.
-/
import proofs.«122402_j2551210574034_1_alg».proof.Proof.KernelIdeal.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : cond0_0 i) (hc1 : ¬cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, fun xi8 xi9 xi10 xi11 E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.KernelIdeal.RunB.lean ====
/-
  The kernel body run once, symbolically, in case B (0 < k < 11: the slice's product is added to the accumulator).
  On whole staging buffers — the eight inputs at their contents, the four idle outputs at contents handed back untouched, the accumulator at
  what the point before left — the body runs to its end, every access in bounds, leaving the inputs as they were and each buffer it
  stored into with the pieces written that the run finds.
-/
import proofs.«122402_j2551210574034_1_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : ¬cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (xi8 xi9 xi10 xi11 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, fun xi8 xi9 xi10 xi11 E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.KernelIdeal.RunC.lean ====
/-
  The kernel body run once, symbolically, in case C (k = 11: the slice's product is added, then the cell is finished and the four results stored).
  On whole staging buffers — the eight inputs at their contents, the four outputs at anything, the accumulator at
  what the point before left — the body runs to its end, every access in bounds, leaving the inputs as they were and each buffer it
  stored into with the pieces written that the run finds.
-/
import proofs.«122402_j2551210574034_1_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S256x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x8192 .f32) (harg14 : arg14.IsWhole) (hc0 : ¬cond0_0 i) (hc1 : cond0_1 i)
    (x0 : Vec F S256x256 .f32) (x1 : Vec F S8192x256 .bf16) (x2 : Vec F S1x8192 .f32) (x3 : Vec F S256x2048 .f32) (x4 : Vec F S256x2048 .f32) (x5 : Vec F S256x2048 .f32) (x6 : Vec F S1x2048 .f32) (x7 : Vec F S1x2048 .f32) (xs0 : Vec F S256x8192 .f32) :
    Σ' (L8 : List (View.Piece (Elt F) S256x2048 .f32)) (L9 : List (View.Piece (Elt F) S256x2048 .f32)) (L10 : List (View.Piece (Elt F) S256x2048 .f32)) (L11 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__slstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__slstm_kernel_eq_skeleton]; unfold cc0__slstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact HS0

end Cert.KernelIdeal.Fr

end
-- ==== Proof.KernelIdeal.Frame.lean ====
/-
  The frame of the program: the kernel region run at all 192 grid points. What each output's staging buffer and the
  accumulator hold after each point is defined by recursion on the point (outsAt0): the case the point is in, run on
  the point's input blocks, in cases B and C over what the point before left in the accumulator. The accumulator's
  contents ride the region invariant from point to point. With the body's run in each case this gives the body
  obligation at every point, the run of the whole program, and the frame: it terminates, faults nowhere, and leaves
  the nineteen argument arrays as launched.
-/
import proofs.«122402_j2551210574034_1_alg».proof.Proof.KernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers the body stores into, read back from the pieces a run found: the four outputs' staging buffers and the accumulator. -/
def packOuts (L8 L9 L10 L11 : List (View.Piece (Elt F) S256x2048 .f32)) (LS0 : List (View.Piece (Elt F) S256x8192 .f32)) : Vec F S256x2048 .f32 × Vec F S256x2048 .f32 × Vec F S256x2048 .f32 × Vec F S256x2048 .f32 × Vec F S256x8192 .f32 :=
  (VO0_8.read (Elt F) (VO0_8.writes (Elt F) VO0_8.junk L8), VO0_9.read (Elt F) (VO0_9.writes (Elt F) VO0_9.junk L9),
   VO0_10.read (Elt F) (VO0_10.writes (Elt F) VO0_10.junk L10), VO0_11.read (Elt F) (VO0_11.writes (Elt F) VO0_11.junk L11),
   VS0_0.read (Elt F) (VS0_0.writes (Elt F) VS0_0.junk LS0))

/-- The body's run at a point of case A, on the point's staging buffers and input blocks. -/
abbrev runA (c : Dev nD) (t : Fin cfg0.N) (h0 : t.val % 12 = 0) (h1 : ¬t.val % 12 = 11) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
/-- At a point of case B, over the accumulator's contents `xs`. -/
abbrev runB (c : Dev nD) (t : Fin cfg0.N) (h0 : ¬t.val % 12 = 0) (h1 : ¬t.val % 12 = 11) (xs : Vec F S256x8192 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs
/-- At a point of case C, over the accumulator's contents `xs`. -/
abbrev runC (c : Dev nD) (t : Fin cfg0.N) (h0 : ¬t.val % 12 = 0) (h1 : t.val % 12 = 11) (xs : Vec F S256x8192 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs

/-! ## The pieces cover what they are stored into -/

theorem scover0_A (c : Dev nD) (t : Fin cfg0.N) (h0 : t.val % 12 = 0) (h1 : ¬t.val % 12 = 11) (y : S256x8192.Idx) :
    ∃ pc ∈ (runA m c t h0 h1).2.2.2.2.1, y ∈ pc.1.set :=
  View.cover_of_tiledL (runA m c t h0 h1).2.2.2.2.1 S256x8192.size (by sl_kernel_rfl) y
theorem scover0_B (c : Dev nD) (t : Fin cfg0.N) (h0 : ¬t.val % 12 = 0) (h1 : ¬t.val % 12 = 11) (xs : Vec F S256x8192 .f32) (y : S256x8192.Idx) :
    ∃ pc ∈ (runB m c t h0 h1 xs).2.2.2.2.1, y ∈ pc.1.set :=
  View.cover_of_tiledL (runB m c t h0 h1 xs).2.2.2.2.1 S256x8192.size (by sl_kernel_rfl) y
theorem scover0_C (c : Dev nD) (t : Fin cfg0.N) (h0 : ¬t.val % 12 = 0) (h1 : t.val % 12 = 11) (xs : Vec F S256x8192 .f32) (y : S256x8192.Idx) :
    ∃ pc ∈ (runC m c t h0 h1 xs).2.2.2.2.1, y ∈ pc.1.set :=
  View.cover_of_tiledL (runC m c t h0 h1 xs).2.2.2.2.1 S256x8192.size (by sl_kernel_rfl) y
theorem cover0_C_8 (c : Dev nD) (t : Fin cfg0.N) (h0 : ¬t.val % 12 = 0) (h1 : t.val % 12 = 11) (xs : Vec F S256x8192 .f32) (y : S256x2048.Idx) :
    ∃ pc ∈ (runC m c t h0 h1 xs).1, y ∈ pc.1.set :=
  View.cover_of_tiledL (runC m c t h0 h1 xs).1 S256x2048.size (by sl_kernel_rfl) y
theorem cover0_C_9 (c : Dev nD) (t : Fin cfg0.N) (h0 : ¬t.val % 12 = 0) (h1 : t.val % 12 = 11) (xs : Vec F S256x8192 .f32) (y : S256x2048.Idx) :
    ∃ pc ∈ (runC m c t h0 h1 xs).2.1, y ∈ pc.1.set :=
  View.cover_of_tiledL (runC m c t h0 h1 xs).2.1 S256x2048.size (by sl_kernel_rfl) y
theorem cover0_C_10 (c : Dev nD) (t : Fin cfg0.N) (h0 : ¬t.val % 12 = 0) (h1 : t.val % 12 = 11) (xs : Vec F S256x8192 .f32) (y : S256x2048.Idx) :
    ∃ pc ∈ (runC m c t h0 h1 xs).2.2.1, y ∈ pc.1.set :=
  View.cover_of_tiledL (runC m c t h0 h1 xs).2.2.1 S256x2048.size (by sl_kernel_rfl) y
theorem cover0_C_11 (c : Dev nD) (t : Fin cfg0.N) (h0 : ¬t.val % 12 = 0) (h1 : t.val % 12 = 11) (xs : Vec F S256x8192 .f32) (y : S256x2048.Idx) :
    ∃ pc ∈ (runC m c t h0 h1 xs).2.2.2.1, y ∈ pc.1.set :=
  View.cover_of_tiledL (runC m c t h0 h1 xs).2.2.2.1 S256x2048.size (by sl_kernel_rfl) y

/-! ## What the buffers hold after each point -/

def outsOfA (c : Dev nD) (t : Fin cfg0.N) (h0 : t.val % 12 = 0) (h1 : ¬t.val % 12 = 11) : Vec F S256x2048 .f32 × Vec F S256x2048 .f32 × Vec F S256x2048 .f32 × Vec F S256x2048 .f32 × Vec F S256x8192 .f32 :=
  packOuts (runA m c t h0 h1).1 (runA m c t h0 h1).2.1 (runA m c t h0 h1).2.2.1 (runA m c t h0 h1).2.2.2.1 (runA m c t h0 h1).2.2.2.2.1
def outsOfB (c : Dev nD) (t : Fin cfg0.N) (h0 : ¬t.val % 12 = 0) (h1 : ¬t.val % 12 = 11) (xs : Vec F S256x8192 .f32) : Vec F S256x2048 .f32 × Vec F S256x2048 .f32 × Vec F S256x2048 .f32 × Vec F S256x2048 .f32 × Vec F S256x8192 .f32 :=
  packOuts (runB m c t h0 h1 xs).1 (runB m c t h0 h1 xs).2.1 (runB m c t h0 h1 xs).2.2.1 (runB m c t h0 h1 xs).2.2.2.1 (runB m c t h0 h1 xs).2.2.2.2.1
def outsOfC (c : Dev nD) (t : Fin cfg0.N) (h0 : ¬t.val % 12 = 0) (h1 : t.val % 12 = 11) (xs : Vec F S256x8192 .f32) : Vec F S256x2048 .f32 × Vec F S256x2048 .f32 × Vec F S256x2048 .f32 × Vec F S256x2048 .f32 × Vec F S256x8192 .f32 :=
  packOuts (runC m c t h0 h1 xs).1 (runC m c t h0 h1 xs).2.1 (runC m c t h0 h1 xs).2.2.1 (runC m c t h0 h1 xs).2.2.2.1 (runC m c t h0 h1 xs).2.2.2.2.1

/-- After the body at position n: the four outputs' staging buffers (placeholders in cases A and B, where they are idle) and the accumulator. -/
def outsAt0 (c : Dev nD) : (n : ℕ) → n < cfg0.N → Vec F S256x2048 .f32 × Vec F S256x2048 .f32 × Vec F S256x2048 .f32 × Vec F S256x2048 .f32 × Vec F S256x8192 .f32
  | 0, hn => outsOfA m c ⟨0, hn⟩ (Nat.zero_mod _) (fun h => absurd ((Nat.zero_mod 12).symm.trans h) (by decide))
  | n + 1, hn =>
    if h0 : (n + 1) % 12 = 0 then
      if h1 : (n + 1) % 12 = 11 then False.elim (by omega)
      else outsOfA m c ⟨n + 1, hn⟩ h0 h1
    else
      if h1 : (n + 1) % 12 = 11 then outsOfC m c ⟨n + 1, hn⟩ h0 h1 (outsAt0 c n (Nat.lt_of_succ_lt hn)).2.2.2.2
      else outsOfB m c ⟨n + 1, hn⟩ h0 h1 (outsAt0 c n (Nat.lt_of_succ_lt hn)).2.2.2.2

theorem outsAt0_A (c : Dev nD) (t : Fin cfg0.N) (h0 : t.val % 12 = 0) (h1 : ¬t.val % 12 = 11) :
    outsAt0 m c t.val t.isLt = outsOfA m c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 12 = 0) (h1 : ¬t.val % 12 = 11) :
    outsAt0 m c t.val t.isLt = outsOfB m c t h0 h1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 12 = 0) (h1 : t.val % 12 = 11) :
    outsAt0 m c t.val t.isLt = outsOfC m c t h0 h1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: at the start the scratch at anything; afterwards the accumulator at what the
    point before left in it. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point. The inputs' staging buffers hold their blocks; the point's position mod 12 says which case it is
    in; that case's run applies; the invariant hands the body the accumulator at what the point before left (at anything at
    the very first point) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 12 = 0
  · by_cases h1 : t.val % 12 = 11
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      rw [outsAt0_A m c t h0 h1]
      unfold outsOfA packOuts; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t h0 h1).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA m c t h0 h1).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11
  · have hz : t.val ≠ 0 := fun h => h0 (by rw [h])
    by_cases h1 : t.val % 12 = 11
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [show (dats m 0 c).leavesExact 9 t = owns (c : Thread nD τ) (ms0_9 t) fullShare ((dats m 0 c).after 9 t) from by
        unfold Dat.leavesExact; rw [liveAt0_9 t ((hcond0_1 t).mpr h1)], after0_9]
      rw [show (dats m 0 c).leavesExact 10 t = owns (c : Thread nD τ) (ms0_10 t) fullShare ((dats m 0 c).after 10 t) from by
        unfold Dat.leavesExact; rw [liveAt0_10 t ((hcond0_1 t).mpr h1)], after0_10]
      rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold outsOfC packOuts; (try dsimp only)
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runC m c t h0 h1 _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        iintro ⟨H0, H1, H2, H3, H4, H5, H6, H7, ⟨%e8, H8⟩, ⟨%e9, H9⟩, ⟨%e10, H10⟩, ⟨%e11, H11⟩, ⟨%es0, HS0⟩⟩
        isplitl [HS0 Hg]
        · isplitl [HS0]
          · unfold owns; iexists _; isplitr
            swap; · iexact HS0
            ipureintro; exact View.read_writes_of_cover _ _ _ _ _ (scover0_C m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 m c t h0 h1 _)
        isplitl [H9]
        · unfold owns; iexists _; isplitr
          swap; · iexact H9
          ipureintro; exact View.read_writes_of_cover _ _ _ _ _ (cover0_C_9 m c t h0 h1 _)
        isplitl [H10]
        · unfold owns; iexists _; isplitr
          swap; · iexact H10
          ipureintro; exact View.read_writes_of_cover _ _ _ _ _ (cover0_C_10 m c t h0 h1 _)
        unfold owns; iexists _; isplitr
        swap; · iexact H11
        ipureintro; exact View.read_writes_of_cover _ _ _ _ _ (cover0_C_11 m c t h0 h1 _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [Dat.leavesExact_idle (dats m 0 c) 11 t (idleAt0_11 t (fun h => h1 ((hcond0_1 t).mp h))) (noFlush0_11 t (fun h => h1 ((hcond0_1 t).mp h)))]
      rw [outsAt0_B m c t h0 h1]
      unfold outsOfB packOuts; (try dsimp only)
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runB m c t h0 h1 _).2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_B m c t h0 h1 _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.KernelIdeal.Blk.lean ====
/-
  Each input window's block at a grid point, named at its literal vector type.
-/
import proofs.«122402_j2551210574034_1_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev blk0 (c : Dev nD) (t : Fin cfg0.N) : Vec F S256x256 .f32 := iblk m c 0 t
abbrev blk1 (c : Dev nD) (t : Fin cfg0.N) : Vec F S8192x256 .bf16 := iblk m c 1 t
abbrev blk2 (c : Dev nD) (t : Fin cfg0.N) : Vec F S1x8192 .f32 := iblk m c 2 t
abbrev blk3 (c : Dev nD) (t : Fin cfg0.N) : Vec F S256x2048 .f32 := iblk m c 3 t
abbrev blk4 (c : Dev nD) (t : Fin cfg0.N) : Vec F S256x2048 .f32 := iblk m c 4 t
abbrev blk5 (c : Dev nD) (t : Fin cfg0.N) : Vec F S256x2048 .f32 := iblk m c 5 t
abbrev blk6 (c : Dev nD) (t : Fin cfg0.N) : Vec F S1x2048 .f32 := iblk m c 6 t
abbrev blk7 (c : Dev nD) (t : Fin cfg0.N) : Vec F S1x2048 .f32 := iblk m c 7 t

end Cert.KernelIdeal.Fr

end
-- ==== Proof.KernelIdeal.Pieces.lean ====
/-
  What the pieces found by the three runs of the body read back as: the accumulator after a point is the body's update
  of what it held before by the point's two matmul operand blocks; at a point of case C the four output buffers are
  the body's arithmetic of the updated accumulator's four column groups, the bias block's, and the other input blocks.
-/
import proofs.«122402_j2551210574034_1_alg».proof.Proof.KernelIdeal.Frame
import proofs.«122402_j2551210574034_1_alg».proof.Proof.KernelIdeal.Blk
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Columns off … off + 2047 of an accumulator block, and of the one-row bias block. -/
def colsOf (a : Vec F S256x8192 .f32) (off : ℕ) (h : off + 2048 ≤ 8192) : Vec F S256x2048 .f32 :=
  fun y => a (ix2 (y 0) ⟨off + (y 1).val, by have h2 : (y 1).val < 2048 := (y 1).isLt; omega⟩)
def colsOfB (b : Vec F S1x8192 .f32) (off : ℕ) (h : off + 2048 ≤ 8192) : Vec F S1x2048 .f32 :=
  fun y => b (ix2 (y 0) ⟨off + (y 1).val, by have h2 : (y 1).val < 2048 := (y 1).isLt; omega⟩)
theorem colsOf_ix (a : Vec F S256x8192 .f32) (off : ℕ) (h : off + 2048 ≤ 8192) (p : Fin 256) (j : Fin 2048) :
    colsOf a off h (ix2 p j) = a (ix2 p ⟨off + j.val, by have := j.isLt; omega⟩) := rfl
theorem colsOfB_ix (b : Vec F S1x8192 .f32) (off : ℕ) (h : off + 2048 ≤ 8192) (j : Fin 2048) :
    colsOfB b off h (ix2 0 j) = b (ix2 0 ⟨off + j.val, by have := j.isLt; omega⟩) := rfl

/-- The zero offsets of a whole-buffer rectangle. -/
theorem hz2 : (![0, 0] : Fin 2 → Nat) = fun _ => 0 := funext fun a => by fin_cases a <;> rfl

/-- A load of 2048 columns from column off of the accumulator, after one store of the whole block w, reads those columns of w. -/
theorem readCov_cols {sg : RefSig} {κ : Kind} {sp : Space} (v : View sg κ sp S256x8192 .f32) (w : Vec F S256x8192 .f32)
    (off : ℕ) (h : off + 2048 ≤ 8192)
    (inb0 : ∀ a, (![0, 0] : Fin 2 → ℕ) a + S256x8192.size a ≤ S256x8192.size a)
    (inb : ∀ a, (![0, off] : Fin 2 → ℕ) a + S256x2048.size a ≤ S256x8192.size a) :
    v.readCov [(⟨Rect.unit ![0, 0] S256x8192.size inb0, w⟩ : View.Piece (Elt F) S256x8192 .f32)]
        (Rect.unit (s := S256x8192) ![0, off] S256x2048.size inb).toLoadRect = colsOf w off h := by
  rw [View.readCov_eq_canon', View.canon_unit_zero hz2]
  funext j
  refine congrArg w (Shape.idx_ext₂ ?_ ?_)
  · show 0 + 1 * (j 0).val = (j 0).val; omega
  · show off + 1 * (j 1).val = off + (j 1).val; omega

/-- A load of 2048 columns from column off of the one-row bias block reads those columns of it. -/
theorem ld_colsB (b : Vec F S1x8192 .f32) (off : ℕ) (h : off + 2048 ≤ 8192)
    (inb : ∀ a, (![0, off] : Fin 2 → ℕ) a + S1x2048.size a ≤ S1x8192.size a) :
    View.ld b (Rect.unit ![0, off] S1x2048.size inb) = colsOfB b off h := by
  funext j
  refine congrArg b (Shape.idx_ext₂ ?_ ?_)
  · show 0 + 1 * (j 0).val = (j 0).val; omega
  · show off + 1 * (j 1).val = off + (j 1).val; omega

/-- Case A: the accumulator is zeroed, read back, and updated by the point's product. -/
theorem accA (c : Dev nD) (t : Fin cfg0.N) (h0 : t.val % 12 = 0) (h1 : ¬t.val % 12 = 11) :
    (outsOfA m c t h0 h1).2.2.2.2 = k0_pay2 (blk0 m c t) (blk1 m c t) k0_pay1 := by
  unfold outsOfA packOuts
  dsimp only
  rw [View.read_writes_eq_canon _ _ _ (scover0_A m c t h0 h1)]
  unfold runA kernelRun0_A
  dsimp only
  sl_unfold_words
  rw [View.canon_cons_unit_zero (S := S256x8192) hz2, View.readCov_unit_zero (S := S256x8192) _ hz2]
  simp only [View.readAt_eq_ld, (hs0_0 t).read_unread, (hs0_1 t).read_unread, (Memref.isWhole_whole cc0_scratch0).read_unread,
    View.ld_unit_zero (S := S256x256) hz2, View.ld_unit_zero (S := S8192x256) hz2, View.ld_unit_zero (S := S256x8192) hz2]
/-- Cases B and C: the accumulator the point before left is updated by the point's product. -/
theorem accB (c : Dev nD) (t : Fin cfg0.N) (h0 : ¬t.val % 12 = 0) (h1 : ¬t.val % 12 = 11) (xs : Vec F S256x8192 .f32) :
    (outsOfB m c t h0 h1 xs).2.2.2.2 = k0_pay2 (blk0 m c t) (blk1 m c t) xs := by
  unfold outsOfB packOuts
  dsimp only
  rw [View.read_writes_eq_canon _ _ _ (scover0_B m c t h0 h1 xs)]
  unfold runB kernelRun0_B
  dsimp only
  sl_unfold_words
  rw [View.canon_unit_zero hz2]
  simp only [View.readAt_eq_ld, (hs0_0 t).read_unread, (hs0_1 t).read_unread, (Memref.isWhole_whole cc0_scratch0).read_unread,
    View.ld_unit_zero (S := S256x256) hz2, View.ld_unit_zero (S := S8192x256) hz2, View.ld_unit_zero (S := S256x8192) hz2]
theorem accC (c : Dev nD) (t : Fin cfg0.N) (h0 : ¬t.val % 12 = 0) (h1 : t.val % 12 = 11) (xs : Vec F S256x8192 .f32) :
    (outsOfC m c t h0 h1 xs).2.2.2.2 = k0_pay2 (blk0 m c t) (blk1 m c t) xs := by
  unfold outsOfC packOuts
  dsimp only
  rw [View.read_writes_eq_canon _ _ _ (scover0_C m c t h0 h1 xs)]
  unfold runC kernelRun0_C
  dsimp only
  sl_unfold_words
  rw [View.canon_unit_zero hz2]
  simp only [View.readAt_eq_ld, (hs0_0 t).read_unread, (hs0_1 t).read_unread, (Memref.isWhole_whole cc0_scratch0).read_unread,
    View.ld_unit_zero (S := S256x256) hz2, View.ld_unit_zero (S := S8192x256) hz2, View.ld_unit_zero (S := S256x8192) hz2]

/-- Case C, the four outputs: each buffer holds its payload of the updated accumulator's column groups, the bias block's matching columns, and the other input blocks. -/
theorem outC_h (c : Dev nD) (t : Fin cfg0.N) (h0 : ¬t.val % 12 = 0) (h1 : t.val % 12 = 11) (xs : Vec F S256x8192 .f32) :
    (outsOfC m c t h0 h1 xs).1
      = k0_pay3 (k0_pay6 (colsOf (k0_pay2 (blk0 m c t) (blk1 m c t) xs) 6144 (by decide)) (colsOfB (blk2 m c t) 6144 (by decide)))
          (k0_pay10 (colsOf (k0_pay2 (blk0 m c t) (blk1 m c t) xs) 0 (by decide)) (colsOfB (blk2 m c t) 0 (by decide)) (colsOf (k0_pay2 (blk0 m c t) (blk1 m c t) xs) 2048 (by decide)) (colsOfB (blk2 m c t) 2048 (by decide)) (colsOf (k0_pay2 (blk0 m c t) (blk1 m c t) xs) 4096 (by decide)) (colsOfB (blk2 m c t) 4096 (by decide)) (blk3 m c t) (blk4 m c t))
          (k0_pay11 (colsOf (k0_pay2 (blk0 m c t) (blk1 m c t) xs) 0 (by decide)) (colsOfB (blk2 m c t) 0 (by decide)) (colsOf (k0_pay2 (blk0 m c t) (blk1 m c t) xs) 2048 (by decide)) (colsOfB (blk2 m c t) 2048 (by decide)) (colsOf (k0_pay2 (blk0 m c t) (blk1 m c t) xs) 4096 (by decide)) (colsOfB (blk2 m c t) 4096 (by decide)) (blk3 m c t) (blk4 m c t))
          (blk6 m c t) (blk7 m c t) := by
  unfold outsOfC packOuts
  dsimp only
  rw [View.read_writes_eq_canon _ _ _ (cover0_C_8 m c t h0 h1 xs)]
  unfold runC kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S256x256) hz2, View.ld_unit_zero (S := S8192x256) hz2, View.ld_unit_zero (S := S256x8192) hz2, View.ld_unit_zero (S := S256x2048) hz2, View.ld_unit_zero (S := S1x2048) hz2,
    ld_colsB _ 0 (by decide), ld_colsB _ 2048 (by decide), ld_colsB _ 4096 (by decide), ld_colsB _ 6144 (by decide),
    readCov_cols _ _ 0 (by decide), readCov_cols _ _ 2048 (by decide), readCov_cols _ _ 4096 (by decide), readCov_cols _ _ 6144 (by decide)]
theorem outC_c (c : Dev nD) (t : Fin cfg0.N) (h0 : ¬t.val % 12 = 0) (h1 : t.val % 12 = 11) (xs : Vec F S256x8192 .f32) :
    (outsOfC m c t h0 h1 xs).2.1 = k0_pay8 (colsOf (k0_pay2 (blk0 m c t) (blk1 m c t) xs) 0 (by decide)) (colsOfB (blk2 m c t) 0 (by decide)) (colsOf (k0_pay2 (blk0 m c t) (blk1 m c t) xs) 2048 (by decide)) (colsOfB (blk2 m c t) 2048 (by decide)) (colsOf (k0_pay2 (blk0 m c t) (blk1 m c t) xs) 4096 (by decide)) (colsOfB (blk2 m c t) 4096 (by decide)) (blk3 m c t) := by
  unfold outsOfC packOuts
  dsimp only
  rw [View.read_writes_eq_canon _ _ _ (cover0_C_9 m c t h0 h1 xs)]
  unfold runC kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S256x256) hz2, View.ld_unit_zero (S := S8192x256) hz2, View.ld_unit_zero (S := S256x8192) hz2, View.ld_unit_zero (S := S256x2048) hz2, View.ld_unit_zero (S := S1x2048) hz2,
    ld_colsB _ 0 (by decide), ld_colsB _ 2048 (by decide), ld_colsB _ 4096 (by decide), ld_colsB _ 6144 (by decide),
    readCov_cols _ _ 0 (by decide), readCov_cols _ _ 2048 (by decide), readCov_cols _ _ 4096 (by decide), readCov_cols _ _ 6144 (by decide)]
theorem outC_n (c : Dev nD) (t : Fin cfg0.N) (h0 : ¬t.val % 12 = 0) (h1 : t.val % 12 = 11) (xs : Vec F S256x8192 .f32) :
    (outsOfC m c t h0 h1 xs).2.2.1 = k0_pay9 (colsOf (k0_pay2 (blk0 m c t) (blk1 m c t) xs) 0 (by decide)) (colsOfB (blk2 m c t) 0 (by decide)) (colsOf (k0_pay2 (blk0 m c t) (blk1 m c t) xs) 2048 (by decide)) (colsOfB (blk2 m c t) 2048 (by decide)) (blk4 m c t) := by
  unfold outsOfC packOuts
  dsimp only
  rw [View.read_writes_eq_canon _ _ _ (cover0_C_10 m c t h0 h1 xs)]
  unfold runC kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S256x256) hz2, View.ld_unit_zero (S := S8192x256) hz2, View.ld_unit_zero (S := S256x8192) hz2, View.ld_unit_zero (S := S256x2048) hz2, View.ld_unit_zero (S := S1x2048) hz2,
    ld_colsB _ 0 (by decide), ld_colsB _ 2048 (by decide), ld_colsB _ 4096 (by decide), ld_colsB _ 6144 (by decide),
    readCov_cols _ _ 0 (by decide), readCov_cols _ _ 2048 (by decide), readCov_cols _ _ 4096 (by decide), readCov_cols _ _ 6144 (by decide)]
theorem outC_m (c : Dev nD) (t : Fin cfg0.N) (h0 : ¬t.val % 12 = 0) (h1 : t.val % 12 = 11) (xs : Vec F S256x8192 .f32) :
    (outsOfC m c t h0 h1 xs).2.2.2.1 = k0_pay7 (colsOf (k0_pay2 (blk0 m c t) (blk1 m c t) xs) 0 (by decide)) (colsOfB (blk2 m c t) 0 (by decide)) (colsOf (k0_pay2 (blk0 m c t) (blk1 m c t) xs) 2048 (by decide)) (colsOfB (blk2 m c t) 2048 (by decide)) (blk5 m c t) := by
  unfold outsOfC packOuts
  dsimp only
  rw [View.read_writes_eq_canon _ _ _ (cover0_C_11 m c t h0 h1 xs)]
  unfold runC kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S256x256) hz2, View.ld_unit_zero (S := S8192x256) hz2, View.ld_unit_zero (S := S256x8192) hz2, View.ld_unit_zero (S := S256x2048) hz2, View.ld_unit_zero (S := S1x2048) hz2,
    ld_colsB _ 0 (by decide), ld_colsB _ 2048 (by decide), ld_colsB _ 4096 (by decide), ld_colsB _ 6144 (by decide),
    readCov_cols _ _ 0 (by decide), readCov_cols _ _ 2048 (by decide), readCov_cols _ _ 4096 (by decide), readCov_cols _ _ 6144 (by decide)]

end Cert.KernelIdeal.Fr

end
-- ==== Proof.Spec.lean ====
/-
  The sLSTM cell as plain functions of the argument arrays, over the extended reals, index by index.
  Nothing here mentions a program: the kernel's side and the reference's side each prove that what they
  compute is these functions.

  The four gates' pre-activations are the columns of one [4096, 8192] matrix
      pre r q = (Σ_k x[r,k]·Wc[q,k] + bc[q]) + Σ_k h[r,k]·Rc[q,k]
  (Wc, bc, Rc the row-wise concatenations of the four gates' weights, biases and recurrent weights; they are
  carried as whole arrays and never opened). Gate g reads columns g·2048 … g·2048+2047.

  The kernel computes the same matrix as a running sum over twelve 256-wide slices of the joined
  contraction axis (x next to h, Wc next to Rc: 1024 + 2048 = 3072 = 12·256), starting from zero, and adds the
  bias last. Addition on the extended reals is commutative and associative, so the two orders agree
  (`acc_last_add_bias`): no finiteness is needed.
-/
import Idealize.ShloMosaic.PureOps.Ideal
import Idealize.ShloMosaic.Lib.ValueIdx

noncomputable section

open Idealize.ShloMosaic Idealize.ShloMosaic.ValueIdx
open scoped BigOperators

namespace Cert.SLstm

abbrev T4096x1024 : Shape := ⟨2, ![4096, 1024]⟩
abbrev T4096x2048 : Shape := ⟨2, ![4096, 2048]⟩
abbrev T8192x1024 : Shape := ⟨2, ![8192, 1024]⟩
abbrev T8192x2048 : Shape := ⟨2, ![8192, 2048]⟩
abbrev T8192 : Shape := ⟨1, ![8192]⟩
abbrev T2048 : Shape := ⟨1, ![2048]⟩

/-- The arrays the cell reads. -/
structure Args where
  x : FVec Ideal T4096x1024 .f32
  h : FVec Ideal T4096x2048 .f32
  c : FVec Ideal T4096x2048 .f32
  n : FVec Ideal T4096x2048 .f32
  mp : FVec Ideal T4096x2048 .f32
  Wc : FVec Ideal T8192x1024 .f32
  bc : FVec Ideal T8192 .f32
  Rc : FVec Ideal T8192x2048 .f32
  gw : FVec Ideal T2048 .f32
  gb : FVec Ideal T2048 .f32

/-- The literals both programs share: 0, 2048 and the GroupNorm epsilon, as their f32 words. -/
abbrev lit0 : EReal := Ideal.ofBits .f32 0x00000000#32
abbrev lit2048 : EReal := Ideal.ofBits .f32 0x45000000#32
abbrev litEps : EReal := Ideal.ofBits .f32 0x3727C5AC#32

/-- Row `r`, column `q` of the four gates' joined pre-activation, in the reference's order of additions. -/
def pre (a : Args) (r : Fin 4096) (q : Fin 8192) : EReal :=
  ((∑ k : Fin 1024, a.x (ix2 r k) * a.Wc (ix2 q k)) + a.bc (ix1 q)) + ∑ k : Fin 2048, a.h (ix2 r k) * a.Rc (ix2 q k)

/-- Column `j` of gate `g` (0 input, 1 forget, 2 cell, 3 output) in the joined matrix. -/
def col (g : Fin 4) (j : Fin 2048) : Fin 8192 := ⟨g.val * 2048 + j.val, by have := g.isLt; have := j.isLt; omega⟩

def ig (a : Args) (r : Fin 4096) (j : Fin 2048) : EReal := Ideal.logistic (pre a r (col 0 j))
def fg (a : Args) (r : Fin 4096) (j : Fin 2048) : EReal := Ideal.logistic (pre a r (col 1 j))
def zg (a : Args) (r : Fin 4096) (j : Fin 2048) : EReal := Ideal.tanh (pre a r (col 2 j))
def og (a : Args) (r : Fin 4096) (j : Fin 2048) : EReal := Ideal.logistic (pre a r (col 3 j))

/-- The new stabilizer, cell and normalizer states. -/
def mNew (a : Args) (r : Fin 4096) (j : Fin 2048) : EReal := max (fg a r j * a.mp (ix2 r j)) (ig a r j)
def cNew (a : Args) (r : Fin 4096) (j : Fin 2048) : EReal := fg a r j * a.c (ix2 r j) + ig a r j * zg a r j
def nNew (a : Args) (r : Fin 4096) (j : Fin 2048) : EReal := fg a r j * a.n (ix2 r j) + ig a r j

/-- The stabilized cell state and its row statistics (GroupNorm with one group: over the whole row). -/
def cStab (a : Args) (r : Fin 4096) (j : Fin 2048) : EReal := Ideal.div (cNew a r j) (nNew a r j)
def mu (a : Args) (r : Fin 4096) : EReal := Ideal.div (∑ j : Fin 2048, cStab a r j) lit2048
def dev (a : Args) (r : Fin 4096) (j : Fin 2048) : EReal := cStab a r j - mu a r
def var (a : Args) (r : Fin 4096) : EReal := Ideal.div (∑ j : Fin 2048, dev a r j * dev a r j) lit2048

/-- The new hidden state. -/
def hNew (a : Args) (r : Fin 4096) (j : Fin 2048) : EReal :=
  og a r j * Ideal.tanh ((dev a r j * Ideal.rsqrt (var a r + litEps)) * a.gw (ix1 j) + a.gb (ix1 j))

/-- The four results as arrays. -/
def Gh (a : Args) : FVec Ideal T4096x2048 .f32 := fun i => hNew a (i 0) (i 1)
def Gc (a : Args) : FVec Ideal T4096x2048 .f32 := fun i => cNew a (i 0) (i 1)
def Gn (a : Args) : FVec Ideal T4096x2048 .f32 := fun i => nNew a (i 0) (i 1)
def Gm (a : Args) : FVec Ideal T4096x2048 .f32 := fun i => mNew a (i 0) (i 1)

theorem Gh_ix (a : Args) (r : Fin 4096) (j : Fin 2048) : Gh a (ix2 r j) = hNew a r j := rfl
theorem Gc_ix (a : Args) (r : Fin 4096) (j : Fin 2048) : Gc a (ix2 r j) = cNew a r j := rfl
theorem Gn_ix (a : Args) (r : Fin 4096) (j : Fin 2048) : Gn a (ix2 r j) = nNew a r j := rfl
theorem Gm_ix (a : Args) (r : Fin 4096) (j : Fin 2048) : Gm a (ix2 r j) = mNew a r j := rfl

/-! ## The kernel's order of summation -/

/-- Entry `k` of row `r` of x joined with h along the columns. -/
def xc (a : Args) (r : Fin 4096) (k : Fin 3072) : EReal :=
  if hk : k.val < 1024 then a.x (ix2 r ⟨k.val, hk⟩) else a.h (ix2 r ⟨k.val - 1024, by have := k.isLt; omega⟩)
/-- Entry `k` of row `q` of Wc joined with Rc along the columns. -/
def wc (a : Args) (q : Fin 8192) (k : Fin 3072) : EReal :=
  if hk : k.val < 1024 then a.Wc (ix2 q ⟨k.val, hk⟩) else a.Rc (ix2 q ⟨k.val - 1024, by have := k.isLt; omega⟩)

/-- Slice `kt` (of twelve, each 256 wide) of the joined contraction. -/
def slice (a : Args) (r : Fin 4096) (q : Fin 8192) (kt : Fin 12) : EReal :=
  ∑ kk : Fin 256, xc a r ⟨kt.val * 256 + kk.val, by have := kt.isLt; have := kk.isLt; omega⟩
                 * wc a q ⟨kt.val * 256 + kk.val, by have := kt.isLt; have := kk.isLt; omega⟩

/-- The running sum after slice `n`: zero plus slice 0, then one slice added per step. -/
def acc (a : Args) (r : Fin 4096) (q : Fin 8192) : (n : ℕ) → n < 12 → EReal
  | 0, h => lit0 + slice a r q ⟨0, h⟩
  | n + 1, h => acc a r q n (Nat.lt_of_succ_lt h) + slice a r q ⟨n + 1, h⟩

theorem acc_zero (a : Args) (r : Fin 4096) (q : Fin 8192) (h : 0 < 12) : acc a r q 0 h = lit0 + slice a r q ⟨0, h⟩ := rfl
theorem acc_succ (a : Args) (r : Fin 4096) (q : Fin 8192) (n : ℕ) (h : n + 1 < 12) :
    acc a r q (n + 1) h = acc a r q n (Nat.lt_of_succ_lt h) + slice a r q ⟨n + 1, h⟩ := rfl

/-- The literal zero is the extended real zero. -/
theorem lit0_eq_zero : lit0 = 0 := by simp [Ideal.ofBits, Ideal.ieee]

/-- The running sum after slice `n` is the plain sum of slices `0 … n`. -/
theorem acc_eq_sum (a : Args) (r : Fin 4096) (q : Fin 8192) :
    ∀ (n : ℕ) (h : n < 12), acc a r q n h = ∑ kt : Fin (n + 1), slice a r q ⟨kt.val, by have := kt.isLt; omega⟩
  | 0, h => by
    rw [acc_zero, lit0_eq_zero, zero_add, Fin.sum_univ_one]
    rfl
  | n + 1, h => by
    rw [acc_succ, Fin.sum_univ_castSucc, acc_eq_sum a r q n (Nat.lt_of_succ_lt h)]
    rfl

/-- Twelve slices of width 256 tile the joined axis: the double sum over (slice, offset) is the single sum
over `Fin 3072`, by the bijection (kt, kk) ↦ kk + 256·kt. -/
theorem sum_slices (g : Fin 3072 → EReal) :
    (∑ kt : Fin 12, ∑ kk : Fin 256,
        g ⟨kt.val * 256 + kk.val, by have := kt.isLt; have := kk.isLt; omega⟩) = ∑ k : Fin 3072, g k := by
  rw [← Fintype.sum_prod_type']
  refine Fintype.sum_equiv (finProdFinEquiv (m := 12) (n := 256)) _ _ (fun p => ?_)
  congr 1
  apply Fin.ext
  simp only [finProdFinEquiv_apply_val]
  omega

/-- The joined axis splits into its first 1024 and its last 2048 positions. -/
theorem sum_split (g : Fin 3072 → EReal) :
    (∑ k : Fin 3072, g k)
      = (∑ k : Fin 1024, g ⟨k.val, by have := k.isLt; omega⟩)
        + ∑ k : Fin 2048, g ⟨1024 + k.val, by have := k.isLt; omega⟩ :=
  Fin.sum_univ_add (a := 1024) (b := 2048) g

theorem xc_lo (a : Args) (r : Fin 4096) (k : Fin 1024) (h : k.val < 3072) :
    xc a r ⟨k.val, h⟩ = a.x (ix2 r k) := by
  unfold xc
  rw [dif_pos k.isLt]
theorem xc_hi (a : Args) (r : Fin 4096) (k : Fin 2048) (h : 1024 + k.val < 3072) :
    xc a r ⟨1024 + k.val, h⟩ = a.h (ix2 r k) := by
  unfold xc
  rw [dif_neg (by simp)]
  congr 2
  apply Fin.ext
  simp
theorem wc_lo (a : Args) (q : Fin 8192) (k : Fin 1024) (h : k.val < 3072) :
    wc a q ⟨k.val, h⟩ = a.Wc (ix2 q k) := by
  unfold wc
  rw [dif_pos k.isLt]
theorem wc_hi (a : Args) (q : Fin 8192) (k : Fin 2048) (h : 1024 + k.val < 3072) :
    wc a q ⟨1024 + k.val, h⟩ = a.Rc (ix2 q k) := by
  unfold wc
  rw [dif_neg (by simp)]
  congr 2
  apply Fin.ext
  simp

/-- The running sum after the last slice, plus the bias, is the reference's pre-activation. -/
theorem acc_last_add_bias (a : Args) (r : Fin 4096) (q : Fin 8192) :
    acc a r q 11 (by decide) + a.bc (ix1 q) = pre a r q := by
  rw [acc_eq_sum a r q 11 (by decide)]
  have h1 : (∑ kt : Fin (11 + 1), slice a r q ⟨kt.val, by have := kt.isLt; omega⟩)
      = ∑ k : Fin 3072, xc a r k * wc a q k := by
    rw [← sum_slices (fun k => xc a r k * wc a q k)]
    rfl
  rw [h1, sum_split]
  simp only [xc_lo, xc_hi, wc_lo, wc_hi]
  unfold pre
  exact add_right_comm _ _ _

end Cert.SLstm

end
-- ==== Proof.SpecRow.lean ====
/-
  The cell, one row at a time. Everything after the pre-activation is local to a row: given the row's 8192
  pre-activations P and the row's entries of c_prev, n_prev, m_prev, and the two GroupNorm vectors, the four results'
  entries in that row follow. The whole-array functions of Spec.lean are these at each row (by unfolding), and the
  kernel's block of 256 rows is these at each row of the block.
-/
import proofs.«122402_j2551210574034_1_alg».proof.Proof.Spec

noncomputable section

open Idealize.ShloMosaic Idealize.ShloMosaic.ValueIdx
open scoped BigOperators

namespace Cert.SLstm

def rIg (P : Fin 8192 → EReal) (j : Fin 2048) : EReal := Ideal.logistic (P (col 0 j))
def rFg (P : Fin 8192 → EReal) (j : Fin 2048) : EReal := Ideal.logistic (P (col 1 j))
def rZg (P : Fin 8192 → EReal) (j : Fin 2048) : EReal := Ideal.tanh (P (col 2 j))
def rOg (P : Fin 8192 → EReal) (j : Fin 2048) : EReal := Ideal.logistic (P (col 3 j))

def rM (P : Fin 8192 → EReal) (mrow : Fin 2048 → EReal) (j : Fin 2048) : EReal := max (rFg P j * mrow j) (rIg P j)
def rC (P : Fin 8192 → EReal) (crow : Fin 2048 → EReal) (j : Fin 2048) : EReal := rFg P j * crow j + rIg P j * rZg P j
def rN (P : Fin 8192 → EReal) (nrow : Fin 2048 → EReal) (j : Fin 2048) : EReal := rFg P j * nrow j + rIg P j

def rStab (P : Fin 8192 → EReal) (crow nrow : Fin 2048 → EReal) (j : Fin 2048) : EReal := Ideal.div (rC P crow j) (rN P nrow j)
def rMu (P : Fin 8192 → EReal) (crow nrow : Fin 2048 → EReal) : EReal := Ideal.div (∑ j : Fin 2048, rStab P crow nrow j) lit2048
def rDev (P : Fin 8192 → EReal) (crow nrow : Fin 2048 → EReal) (j : Fin 2048) : EReal := rStab P crow nrow j - rMu P crow nrow
def rVar (P : Fin 8192 → EReal) (crow nrow : Fin 2048 → EReal) : EReal := Ideal.div (∑ j : Fin 2048, rDev P crow nrow j * rDev P crow nrow j) lit2048
def rH (P : Fin 8192 → EReal) (crow nrow gw gb : Fin 2048 → EReal) (j : Fin 2048) : EReal :=
  rOg P j * Ideal.tanh ((rDev P crow nrow j * Ideal.rsqrt (rVar P crow nrow + litEps)) * gw j + gb j)

theorem mNew_row (a : Args) (r : Fin 4096) (j : Fin 2048) : mNew a r j = rM (pre a r) (fun j => a.mp (ix2 r j)) j := rfl
theorem cNew_row (a : Args) (r : Fin 4096) (j : Fin 2048) : cNew a r j = rC (pre a r) (fun j => a.c (ix2 r j)) j := rfl
theorem nNew_row (a : Args) (r : Fin 4096) (j : Fin 2048) : nNew a r j = rN (pre a r) (fun j => a.n (ix2 r j)) j := rfl
theorem hNew_row (a : Args) (r : Fin 4096) (j : Fin 2048) :
    hNew a r j = rH (pre a r) (fun j => a.c (ix2 r j)) (fun j => a.n (ix2 r j)) (fun j => a.gw (ix1 j)) (fun j => a.gb (ix1 j)) j := rfl

end Cert.SLstm

end
-- ==== Proof.KernelIdeal.PayIdx.lean ====
/-
  The kernel body's arithmetic, read at an index over the extended reals. The accumulator update is the old entry
  plus the slice's dot product; the four results' entries at row p of a block are the row-wise cell functions
  (SpecRow.lean) of the row's pre-activations, whatever those are: the loaded accumulator columns plus the bias.
-/
import proofs.«122402_j2551210574034_1_alg».proof.Proof.Gen.KernelIdeal.Skeleton
import proofs.«122402_j2551210574034_1_alg».proof.Proof.SpecRow
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Val

open Cert.KernelIdeal Cert.KernelIdeal.Gen Cert.SLstm

/-! ## Layout operations read at an index: the column forms -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row sum of a `[256, 2048]` array read at row `p`: the sum over the row's 2048 entries. -/
theorem rowSum_apply (src : FVec Ideal S256x2048 .f32) (hφ : FKind.Formats .f32)
    (hacc : (0x00000000#32 : BitVec 32) = 0x00000000#32) (p : Fin 256) :
    multiReduction (F := Ideal) .add [1] S256 src 0x00000000#32 reduces_S256x2048_S256 hφ hacc (ix1 p)
      = ∑ k : Fin 2048, src (ix2 p k) := by
  refine (Ideal.multiReduction_add_single src _ reduces_S256x2048_S256 hφ hacc (ix1 p)).trans ?_
  refine Finset.sum_congr rfl fun k _ => congrArg src ?_
  funext c
  match c with
  | ⟨0, _⟩ => rfl
  | ⟨1, _⟩ => rfl

/-! ## The accumulator's two payloads -/

theorem pay1_ix (p : Fin 256) (q : Fin 8192) : k0_pay1 (F := Ideal) (ix2 p q) = lit0 := by
  unfold k0_pay1
  rw [shapeCast_self]
  rfl

theorem lhs_k0_pay2_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem lhs_k0_pay2_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem rhs_k0_pay2_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem rhs_k0_pay2_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The slice's dot product at `(p, q)`: both operands are contracted over their second axis. -/
theorem matmul_k0_pay2_apply (lhs : FVec Ideal S256x256 .bf16) (rhs : FVec Ideal S8192x256 .bf16) (p : Fin 256) (q : Fin 8192) :
    matmul dot_S256x256_S8192x256_S256x8192_1_1_0_0_n_n none lhs rhs (constant (F := Ideal) S256x8192 .f32 0x00000000#32) (ix2 p q)
      = ∑ kk : Fin 256, lhs (ix2 p kk) * rhs (ix2 q kk) := by
  simp only [matmul]
  rw [Ideal.matmul_constant_zero_apply, ← Equiv.sum_comp (contrEquiv1 dot_S256x256_S8192x256_S256x8192_1_1_0_0_n_n 256 rfl rfl).symm]
  refine Finset.sum_congr rfl fun k _ => ?_
  have hk := contrEquiv1_symm_val dot_S256x256_S8192x256_S256x8192_1_1_0_0_n_n 256 rfl rfl k
  have el : dot_S256x256_S8192x256_S256x8192_1_1_0_0_n_n.lhsIdx (ix2 p q) ((contrEquiv1 dot_S256x256_S8192x256_S256x8192_1_1_0_0_n_n 256 rfl rfl).symm k) = ix2 p k := funext fun a => Fin.ext (by
    match a with
    | ⟨0, _⟩ => exact lhs_k0_pay2_0 _ _
    | ⟨1, _⟩ => exact (lhs_k0_pay2_1 _ _).trans hk)
  have er : dot_S256x256_S8192x256_S256x8192_1_1_0_0_n_n.rhsIdx (ix2 p q) ((contrEquiv1 dot_S256x256_S8192x256_S256x8192_1_1_0_0_n_n 256 rfl rfl).symm k) = ix2 q k := funext fun a => Fin.ext (by
    match a with
    | ⟨0, _⟩ => exact rhs_k0_pay2_0 _ _
    | ⟨1, _⟩ => exact (rhs_k0_pay2_1 _ _).trans hk)
  rw [el, er]

theorem pay2_ix (x0 : Vec Ideal S256x256 .f32) (x1 : Vec Ideal S8192x256 .bf16) (v9 : Vec Ideal S256x8192 .f32) (p : Fin 256) (q : Fin 8192) :
    k0_pay2 (F := Ideal) x0 x1 v9 (ix2 p q) = v9 (ix2 p q) + ∑ kk : Fin 256, x0 (ix2 p kk) * x1 (ix2 q kk) := by
  unfold k0_pay2
  simp only [shapeCast_self]
  refine (addf_apply _ _ _).trans ?_
  rw [matmul_k0_pay2_apply]
  rfl

variable (v17 v22 v27 v32 v41 v42 v43 : Vec Ideal S256x2048 .f32) (v18 v23 v28 v33 v70 v74 : Vec Ideal S1x2048 .f32)
  (P : Fin 256 → Fin 8192 → EReal)

/-! ## The cell's payloads at row `p`, column `j` -/

/-- The lane-wise logistic, tanh and reciprocal square root read at an index are the extended reals' functions. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-- A bias row broadcast over the block's rows reads, at `(p, j)`, the row at `j`. -/
theorem row_apply (w : FVec Ideal S1x2048 .f32) (p : Fin 256) (j : Fin 2048) :
    broadcastTo S256x2048 (shapeCast S1x2048 w shapeCasts_S1x2048_S1x2048) broadcasts_S1x2048_S256x2048 (ix2 p j) = w (ix2 0 j) := by
  rw [shapeCast_self]
  exact broadcastTo_1b_ab_apply w broadcasts_S1x2048_S256x2048 p j

/-- The input gate: the logistic of the row's pre-activation in gate 0's columns. -/
theorem pay4_ix (h17 : ∀ p j, v17 (ix2 p j) + v18 (ix2 0 j) = P p (col 0 j)) (p : Fin 256) (j : Fin 2048) :
    k0_pay4 (F := Ideal) v17 v18 (ix2 p j) = rIg (P p) j := by
  unfold k0_pay4
  refine (logistic_apply _ _).trans ?_
  rw [addf_apply, row_apply, h17]
  rfl

/-- The forget gate. -/
theorem pay5_ix (h22 : ∀ p j, v22 (ix2 p j) + v23 (ix2 0 j) = P p (col 1 j)) (p : Fin 256) (j : Fin 2048) :
    k0_pay5 (F := Ideal) v22 v23 (ix2 p j) = rFg (P p) j := by
  unfold k0_pay5
  refine (logistic_apply _ _).trans ?_
  rw [addf_apply, row_apply, h22]
  rfl

/-- The output gate. -/
theorem pay6_ix (h32 : ∀ p j, v32 (ix2 p j) + v33 (ix2 0 j) = P p (col 3 j)) (p : Fin 256) (j : Fin 2048) :
    k0_pay6 (F := Ideal) v32 v33 (ix2 p j) = rOg (P p) j := by
  unfold k0_pay6
  refine (logistic_apply _ _).trans ?_
  rw [addf_apply, row_apply, h32]
  rfl

theorem pay7_ix (h17 : ∀ p j, v17 (ix2 p j) + v18 (ix2 0 j) = P p (col 0 j)) (h22 : ∀ p j, v22 (ix2 p j) + v23 (ix2 0 j) = P p (col 1 j))
    (p : Fin 256) (j : Fin 2048) :
    k0_pay7 (F := Ideal) v17 v18 v22 v23 v43 (ix2 p j) = rM (P p) (fun j => v43 (ix2 p j)) j := by
  unfold k0_pay7
  refine (maximumf_apply _ _ _).trans ?_
  rw [mulf_apply, pay5_ix v22 v23 P h22, pay4_ix v17 v18 P h17]
  rfl

theorem pay8_ix (h17 : ∀ p j, v17 (ix2 p j) + v18 (ix2 0 j) = P p (col 0 j)) (h22 : ∀ p j, v22 (ix2 p j) + v23 (ix2 0 j) = P p (col 1 j))
    (h27 : ∀ p j, v27 (ix2 p j) + v28 (ix2 0 j) = P p (col 2 j)) (p : Fin 256) (j : Fin 2048) :
    k0_pay8 (F := Ideal) v17 v18 v22 v23 v27 v28 v41 (ix2 p j) = rC (P p) (fun j => v41 (ix2 p j)) j := by
  unfold k0_pay8
  refine (addf_apply _ _ _).trans ?_
  rw [mulf_apply, mulf_apply, pay5_ix v22 v23 P h22, pay4_ix v17 v18 P h17, tanh_apply, addf_apply, row_apply, h27]
  rfl

theorem pay9_ix (h17 : ∀ p j, v17 (ix2 p j) + v18 (ix2 0 j) = P p (col 0 j)) (h22 : ∀ p j, v22 (ix2 p j) + v23 (ix2 0 j) = P p (col 1 j))
    (p : Fin 256) (j : Fin 2048) :
    k0_pay9 (F := Ideal) v17 v18 v22 v23 v42 (ix2 p j) = rN (P p) (fun j => v42 (ix2 p j)) j := by
  unfold k0_pay9
  refine (addf_apply _ _ _).trans ?_
  rw [mulf_apply, pay5_ix v22 v23 P h22, pay4_ix v17 v18 P h17]
  rfl

/-- The stabilized cell state: the new cell state over the new normalizer. -/
theorem pay10_ix (h17 : ∀ p j, v17 (ix2 p j) + v18 (ix2 0 j) = P p (col 0 j)) (h22 : ∀ p j, v22 (ix2 p j) + v23 (ix2 0 j) = P p (col 1 j))
    (h27 : ∀ p j, v27 (ix2 p j) + v28 (ix2 0 j) = P p (col 2 j)) (p : Fin 256) (j : Fin 2048) :
    k0_pay10 (F := Ideal) v17 v18 v22 v23 v27 v28 v41 v42 (ix2 p j)
      = rStab (P p) (fun j => v41 (ix2 p j)) (fun j => v42 (ix2 p j)) j := by
  unfold k0_pay10
  refine (divf_apply _ _ _).trans ?_
  rw [pay8_ix v17 v22 v27 v41 v18 v23 v28 P h17 h22 h27, pay9_ix v17 v22 v42 v18 v23 P h17 h22]
  rfl

/-- Its row sum, kept as a one-entry column. -/
theorem pay11_ix (h17 : ∀ p j, v17 (ix2 p j) + v18 (ix2 0 j) = P p (col 0 j)) (h22 : ∀ p j, v22 (ix2 p j) + v23 (ix2 0 j) = P p (col 1 j))
    (h27 : ∀ p j, v27 (ix2 p j) + v28 (ix2 0 j) = P p (col 2 j)) (p : Fin 256) (u : Fin 1) :
    k0_pay11 (F := Ideal) v17 v18 v22 v23 v27 v28 v41 v42 (ix2 p u)
      = ∑ j : Fin 2048, rStab (P p) (fun j => v41 (ix2 p j)) (fun j => v42 (ix2 p j)) j := by
  unfold k0_pay11
  refine (shapeCast_a_a1_apply _ shapeCasts_S256_S256x1 p u).trans ?_
  refine (rowSum_apply _ _ _ p).trans ?_
  exact Finset.sum_congr rfl fun j _ => pay10_ix v17 v22 v27 v41 v42 v18 v23 v28 P h17 h22 h27 p j

/-- The normalization and output gating, over any gate block `g`, stabilized block `s` and column of row sums `t`:
the mean is the row sum over 2048, the variance the row sum of squared deviations over 2048. -/
theorem pay3_gen (g s : FVec Ideal S256x2048 .f32) (t : FVec Ideal S256x1 .f32) (p : Fin 256) (j : Fin 2048) :
    k0_pay3 (F := Ideal) g s t v70 v74 (ix2 p j)
      = g (ix2 p j) * Ideal.tanh (((s (ix2 p j) - Ideal.div (t (ix2 p 0)) lit2048)
          * Ideal.rsqrt (Ideal.div (∑ k : Fin 2048, (s (ix2 p k) - Ideal.div (t (ix2 p 0)) lit2048)
              * (s (ix2 p k) - Ideal.div (t (ix2 p 0)) lit2048)) lit2048 + litEps))
          * v70 (ix2 0 j) + v74 (ix2 0 j)) := by
  unfold k0_pay3
  simp only [mulf_apply, addf_apply, subf_apply, divf_apply, tanh_apply, rsqrt_apply, row_apply, broadcastTo_a1_ab_apply,
    shapeCast_a_a1_apply, broadcast_apply]
  rw [rowSum_apply]
  simp only [mulf_apply, subf_apply, divf_apply, broadcastTo_a1_ab_apply, broadcast_apply]
  rfl

theorem pay3_ix (h17 : ∀ p j, v17 (ix2 p j) + v18 (ix2 0 j) = P p (col 0 j)) (h22 : ∀ p j, v22 (ix2 p j) + v23 (ix2 0 j) = P p (col 1 j))
    (h27 : ∀ p j, v27 (ix2 p j) + v28 (ix2 0 j) = P p (col 2 j)) (h32 : ∀ p j, v32 (ix2 p j) + v33 (ix2 0 j) = P p (col 3 j))
    (p : Fin 256) (j : Fin 2048) :
    k0_pay3 (F := Ideal) (k0_pay6 v32 v33) (k0_pay10 v17 v18 v22 v23 v27 v28 v41 v42) (k0_pay11 v17 v18 v22 v23 v27 v28 v41 v42) v70 v74 (ix2 p j)
      = rH (P p) (fun j => v41 (ix2 p j)) (fun j => v42 (ix2 p j)) (fun j => v70 (ix2 0 j)) (fun j => v74 (ix2 0 j)) j := by
  refine (pay3_gen v70 v74 _ _ _ p j).trans ?_
  rw [pay6_ix v32 v33 P h32, pay11_ix v17 v22 v27 v41 v42 v18 v23 v28 P h17 h22 h27 p 0]
  simp only [pay10_ix v17 v22 v27 v41 v42 v18 v23 v28 P h17 h22 h27]
  rfl

end Cert.KernelIdeal.Val

end
-- ==== Proof.KernelIdeal.Reads.lean ====
/-
  What the region finds in its input windows, in terms of the cell's arrays. Row block b = t / 12 and slice kt = t % 12 of
  grid point t: window 0's block is rows b·256 … of x joined with h, columns kt·256 …; window 1's is all rows of
  Wc joined with Rc (rounded to bf16: the identity over the extended reals), the same columns; window 2 is the joined
  bias as one row; windows 3, 4, 5 are row block b of c_prev, n_prev, m_prev; windows 6, 7 the GroupNorm vectors as rows.
-/
import proofs.«122402_j2551210574034_1_alg».proof.Proof.KernelIdeal.Blk
import proofs.«122402_j2551210574034_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem
open scoped BigOperators

namespace Cert.KernelIdeal.Val

open Cert.KernelIdeal Cert.KernelIdeal.Gen Cert.KernelIdeal.Fr Cert.SLstm

variable (m : (ℓ : Loc nD τ sig) → Buf (Elt Ideal) ℓ)

/-- The cell's arrays from the program's launch memory: the three row-wise concatenations as the program forms them. -/
def kargs (c : Dev nD) : Cert.SLstm.Args :=
  ⟨(m ((c.tc : Thread nD τ).loc main_arg0)), (m ((c.tc : Thread nD τ).loc main_arg1)), (m ((c.tc : Thread nD τ).loc main_arg2)), (m ((c.tc : Thread nD τ).loc main_arg3)), (m ((c.tc : Thread nD τ).loc main_arg4)),
   concatenate S8192x1024 0 [⟨S2048x1024, (m ((c.tc : Thread nD τ).loc main_arg5))⟩, ⟨S2048x1024, (m ((c.tc : Thread nD τ).loc main_arg6))⟩, ⟨S2048x1024, (m ((c.tc : Thread nD τ).loc main_arg7))⟩, ⟨S2048x1024, (m ((c.tc : Thread nD τ).loc main_arg8))⟩] concatenates_S2048x1024_S2048x1024_S2048x1024_S2048x1024_S8192x1024_d0,
   concatenate S8192 0 [⟨S2048, (m ((c.tc : Thread nD τ).loc main_arg9))⟩, ⟨S2048, (m ((c.tc : Thread nD τ).loc main_arg10))⟩, ⟨S2048, (m ((c.tc : Thread nD τ).loc main_arg11))⟩, ⟨S2048, (m ((c.tc : Thread nD τ).loc main_arg12))⟩] concatenates_S2048_S2048_S2048_S2048_S8192_d0,
   concatenate S8192x2048 0 [⟨S2048x2048, (m ((c.tc : Thread nD τ).loc main_arg13))⟩, ⟨S2048x2048, (m ((c.tc : Thread nD τ).loc main_arg14))⟩, ⟨S2048x2048, (m ((c.tc : Thread nD τ).loc main_arg15))⟩, ⟨S2048x2048, (m ((c.tc : Thread nD τ).loc main_arg16))⟩] concatenates_S2048x2048_S2048x2048_S2048x2048_S2048x2048_S8192x2048_d0,
   (m ((c.tc : Thread nD τ).loc main_arg17)), (m ((c.tc : Thread nD τ).loc main_arg18))⟩

/-- Row p of grid point t's row block, and column kk of its slice of the joined contraction axis. -/
def row (t : Fin cfg0.N) (p : Fin 256) : Fin 4096 :=
  ⟨(t.val / 12) * 256 + p.val, by have := t.isLt; have hN : cfg0.N = 192 := N_0; have := p.isLt; omega⟩
def kcol (t : Fin cfg0.N) (kk : Fin 256) : Fin 3072 :=
  ⟨(t.val % 12) * 256 + kk.val, by have := kk.isLt; omega⟩

/-! ## The printed index maps over the grid -/

/-- Window 0 (x joined with h) moves with both grid coordinates; window 1 (Wc joined with Rc) with the slice only. -/
theorem idx0 : ∀ t : Fin cfg0.N, win0_0.index t (0 : Fin 2) = t.val / 12 ∧ win0_0.index t (1 : Fin 2) = t.val % 12 :=
  (by decide +kernel : ∀ t : Fin grid0.N, _)
theorem idx1 : ∀ t : Fin cfg0.N, win0_1.index t (0 : Fin 2) = 0 ∧ win0_1.index t (1 : Fin 2) = t.val % 12 :=
  (by decide +kernel : ∀ t : Fin grid0.N, _)
/-- Windows 2, 6, 7 are whole arrays at every point. -/
theorem idx2 : ∀ t : Fin cfg0.N, win0_2.index t (0 : Fin 2) = 0 ∧ win0_2.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
/-- Windows 3, 4, 5 move with the row block only. -/
theorem idx3 : ∀ t : Fin cfg0.N, win0_3.index t (0 : Fin 2) = t.val / 12 ∧ win0_3.index t (1 : Fin 2) = 0 :=
  (by decide +kernel : ∀ t : Fin grid0.N, _)
theorem idx4 : ∀ t : Fin cfg0.N, win0_4.index t (0 : Fin 2) = t.val / 12 ∧ win0_4.index t (1 : Fin 2) = 0 :=
  (by decide +kernel : ∀ t : Fin grid0.N, _)
theorem idx5 : ∀ t : Fin cfg0.N, win0_5.index t (0 : Fin 2) = t.val / 12 ∧ win0_5.index t (1 : Fin 2) = 0 :=
  (by decide +kernel : ∀ t : Fin grid0.N, _)

/-! ## The windows' arrays as the host operations leave them -/

/-- Window 0's array: x next to h. -/
theorem v3_eq (c : Dev nD) : (V m c main_v3 : S4096x3072.Idx → EReal)
    = concatenate S4096x3072 1 [⟨S4096x1024, (m ((c.tc : Thread nD τ).loc main_arg0))⟩, ⟨S4096x2048, (m ((c.tc : Thread nD τ).loc main_arg1))⟩] concatenates_S4096x1024_S4096x2048_S4096x3072_d1 := by
  dsimp only [V, hostOps0]; after_results

/-- Window 1's array: Wc next to Rc, rounded to bf16. -/
theorem v5_eq (c : Dev nD) : (V m c main_v5 : FVec Ideal S8192x3072 .bf16)
    = truncf (F := Ideal) .bf16 (concatenate S8192x3072 1 [⟨S8192x1024, (concatenate S8192x1024 0 [⟨S2048x1024, (m ((c.tc : Thread nD τ).loc main_arg5))⟩, ⟨S2048x1024, (m ((c.tc : Thread nD τ).loc main_arg6))⟩, ⟨S2048x1024, (m ((c.tc : Thread nD τ).loc main_arg7))⟩, ⟨S2048x1024, (m ((c.tc : Thread nD τ).loc main_arg8))⟩] concatenates_S2048x1024_S2048x1024_S2048x1024_S2048x1024_S8192x1024_d0)⟩,
        ⟨S8192x2048, (concatenate S8192x2048 0 [⟨S2048x2048, (m ((c.tc : Thread nD τ).loc main_arg13))⟩, ⟨S2048x2048, (m ((c.tc : Thread nD τ).loc main_arg14))⟩, ⟨S2048x2048, (m ((c.tc : Thread nD τ).loc main_arg15))⟩, ⟨S2048x2048, (m ((c.tc : Thread nD τ).loc main_arg16))⟩] concatenates_S2048x2048_S2048x2048_S2048x2048_S2048x2048_S8192x2048_d0)⟩] concatenates_S8192x1024_S8192x2048_S8192x3072_d1) bitsLt_bf16_f32 := by
  dsimp only [V, hostOps0]; after_results; try rfl

/-- Window 2's array: the joined bias as one row. -/
theorem v6_eq (c : Dev nD) : (V m c main_v6 : S1x8192.Idx → EReal)
    = shapeCast S1x8192 (concatenate S8192 0 [⟨S2048, (m ((c.tc : Thread nD τ).loc main_arg9))⟩, ⟨S2048, (m ((c.tc : Thread nD τ).loc main_arg10))⟩, ⟨S2048, (m ((c.tc : Thread nD τ).loc main_arg11))⟩, ⟨S2048, (m ((c.tc : Thread nD τ).loc main_arg12))⟩] concatenates_S2048_S2048_S2048_S2048_S8192_d0) shapeCasts_S8192_S1x8192 := by
  dsimp only [V, hostOps0]; after_results; try rfl

/-- Windows 6 and 7's arrays: the GroupNorm weight and bias as rows. -/
theorem v7_eq (c : Dev nD) : (V m c main_v7 : S1x2048.Idx → EReal)
    = shapeCast S1x2048 (m ((c.tc : Thread nD τ).loc main_arg17)) shapeCasts_S2048_S1x2048 := by
  dsimp only [V, hostOps0]; after_results; try rfl
theorem v8_eq (c : Dev nD) : (V m c main_v8 : S1x2048.Idx → EReal)
    = shapeCast S1x2048 (m ((c.tc : Thread nD τ).loc main_arg18)) shapeCasts_S2048_S1x2048 := by
  dsimp only [V, hostOps0]; after_results; try rfl

/-! ## The two joined arrays read at an index -/

/-- x next to h at (r, k): x's column k below 1024, h's column k − 1024 from there on. -/
theorem v3_ix (c : Dev nD) (r : Fin 4096) (k : Fin 3072) :
    (V m c main_v3 : S4096x3072.Idx → EReal) (ix2 r k) = xc (kargs m c) r k := by
  rw [v3_eq]
  unfold xc
  by_cases hk : k.val < 1024
  · rw [dif_pos hk]
    exact concatenate_pair_apply_left (1 : Fin S4096x3072.rank) _ _ concatenates_S4096x1024_S4096x2048_S4096x3072_d1 (ix2 r k) rfl
      (ix2 r ⟨k.val, hk⟩) (fun b => match b with | ⟨0, _⟩ => rfl | ⟨1, _⟩ => rfl)
  · rw [dif_neg hk]
    exact concatenate_pair_apply_right (1 : Fin S4096x3072.rank) _ _ concatenates_S4096x1024_S4096x2048_S4096x3072_d1 (ix2 r k) rfl rfl
      (ix2 r ⟨k.val - 1024, by have := k.isLt; omega⟩)
      (fun b hb => match b, hb with | ⟨0, _⟩, _ => rfl | ⟨1, _⟩, hb => absurd rfl hb)
      (by show k.val - 1024 + 1024 = k.val; omega)

/-- Wc next to Rc at (q, k), the rounding the identity over the extended reals. -/
theorem v5_ix (c : Dev nD) (q : Fin 8192) (k : Fin 3072) :
    (V m c main_v5 : FVec Ideal S8192x3072 .bf16) (ix2 q k) = wc (kargs m c) q k := by
  rw [v5_eq, truncf_apply]
  unfold wc
  by_cases hk : k.val < 1024
  · rw [dif_pos hk]
    exact concatenate_pair_apply_left (1 : Fin S8192x3072.rank) _ _ concatenates_S8192x1024_S8192x2048_S8192x3072_d1 (ix2 q k) rfl
      (ix2 q ⟨k.val, hk⟩) (fun b => match b with | ⟨0, _⟩ => rfl | ⟨1, _⟩ => rfl)
  · rw [dif_neg hk]
    exact concatenate_pair_apply_right (1 : Fin S8192x3072.rank) _ _ concatenates_S8192x1024_S8192x2048_S8192x3072_d1 (ix2 q k) rfl rfl
      (ix2 q ⟨k.val - 1024, by have := k.isLt; omega⟩)
      (fun b hb => match b, hb with | ⟨0, _⟩, _ => rfl | ⟨1, _⟩, hb => absurd rfl hb)
      (by show k.val - 1024 + 1024 = k.val; omega)

/-! ## The blocks -/

theorem blk0_ix (c : Dev nD) (t : Fin cfg0.N) (p : Fin 256) (kk : Fin 256) :
    blk0 m c t (ix2 p kk) = xc (kargs m c) (row t p) (kcol t kk) := by
  obtain ⟨h0, h1⟩ := idx0 t
  show iblk m c 0 t (ix2 p kk) = _
  unfold iblk
  rw [View.read_apply]
  show (V m c main_v3 : S4096x3072.Idx → EReal) _ = _
  have e : (((cfg0.win 0).blk t).view.emb (ix2 p kk) : S4096x3072.Idx) = ix2 (row t p) (kcol t kk) := by
    funext a
    apply Fin.ext
    match a with
    | ⟨0, _⟩ => show win0_0.index t (0 : Fin 2) * 256 + 1 * p.val = (t.val / 12) * 256 + p.val; rw [h0]; omega
    | ⟨1, _⟩ => show win0_0.index t (1 : Fin 2) * 256 + 1 * kk.val = (t.val % 12) * 256 + kk.val; rw [h1]; omega
  rw [e]
  exact v3_ix m c (row t p) (kcol t kk)
theorem blk1_ix (c : Dev nD) (t : Fin cfg0.N) (q : Fin 8192) (kk : Fin 256) :
    blk1 m c t (ix2 q kk) = wc (kargs m c) q (kcol t kk) := by
  obtain ⟨h0, h1⟩ := idx1 t
  show iblk m c 1 t (ix2 q kk) = _
  unfold iblk
  rw [View.read_apply]
  show (V m c main_v5 : FVec Ideal S8192x3072 .bf16) _ = _
  have e : (((cfg0.win 1).blk t).view.emb (ix2 q kk) : S8192x3072.Idx) = ix2 q (kcol t kk) := by
    funext a
    apply Fin.ext
    match a with
    | ⟨0, _⟩ => show win0_1.index t (0 : Fin 2) * 8192 + 1 * q.val = q.val; rw [h0]; omega
    | ⟨1, _⟩ => show win0_1.index t (1 : Fin 2) * 256 + 1 * kk.val = (t.val % 12) * 256 + kk.val; rw [h1]; omega
  rw [e]
  exact v5_ix m c q (kcol t kk)
theorem blk2_ix (c : Dev nD) (t : Fin cfg0.N) (q : Fin 8192) :
    blk2 m c t (ix2 0 q) = (kargs m c).bc (ix1 q) := by
  obtain ⟨h0, h1⟩ := idx2 t
  show iblk m c 2 t (ix2 (0 : Fin 1) q) = _
  unfold iblk
  rw [View.read_apply]
  show (V m c main_v6 : S1x8192.Idx → EReal) _ = _
  have e : (((cfg0.win 2).blk t).view.emb (ix2 (0 : Fin 1) q) : S1x8192.Idx) = ix2 (0 : Fin 1) q := by
    funext a
    apply Fin.ext
    match a with
    | ⟨0, _⟩ => show win0_2.index t (0 : Fin 2) * 1 + 1 * 0 = 0; rw [h0]
    | ⟨1, _⟩ => show win0_2.index t (1 : Fin 2) * 8192 + 1 * q.val = q.val; rw [h1]; omega
  rw [e, v6_eq]
  exact shapeCast_a_1a_apply _ _ 0 q
theorem blk3_ix (c : Dev nD) (t : Fin cfg0.N) (p : Fin 256) (j : Fin 2048) :
    blk3 m c t (ix2 p j) = (kargs m c).c (ix2 (row t p) j) := by
  obtain ⟨h0, h1⟩ := idx3 t
  show iblk m c 3 t (ix2 p j) = m ((c.tc : Thread nD τ).loc main_arg2) (ix2 (row t p) j)
  unfold iblk
  rw [View.read_apply]
  show V m c main_arg2 _ = _
  rw [V_main_arg2]
  congr 1
  funext a
  apply Fin.ext
  match a with
  | ⟨0, _⟩ => show win0_3.index t (0 : Fin 2) * 256 + 1 * p.val = (t.val / 12) * 256 + p.val; rw [h0]; omega
  | ⟨1, _⟩ => show win0_3.index t (1 : Fin 2) * 2048 + 1 * j.val = j.val; rw [h1]; omega
theorem blk4_ix (c : Dev nD) (t : Fin cfg0.N) (p : Fin 256) (j : Fin 2048) :
    blk4 m c t (ix2 p j) = (kargs m c).n (ix2 (row t p) j) := by
  obtain ⟨h0, h1⟩ := idx4 t
  show iblk m c 4 t (ix2 p j) = m ((c.tc : Thread nD τ).loc main_arg3) (ix2 (row t p) j)
  unfold iblk
  rw [View.read_apply]
  show V m c main_arg3 _ = _
  rw [V_main_arg3]
  congr 1
  funext a
  apply Fin.ext
  match a with
  | ⟨0, _⟩ => show win0_4.index t (0 : Fin 2) * 256 + 1 * p.val = (t.val / 12) * 256 + p.val; rw [h0]; omega
  | ⟨1, _⟩ => show win0_4.index t (1 : Fin 2) * 2048 + 1 * j.val = j.val; rw [h1]; omega
theorem blk5_ix (c : Dev nD) (t : Fin cfg0.N) (p : Fin 256) (j : Fin 2048) :
    blk5 m c t (ix2 p j) = (kargs m c).mp (ix2 (row t p) j) := by
  obtain ⟨h0, h1⟩ := idx5 t
  show iblk m c 5 t (ix2 p j) = m ((c.tc : Thread nD τ).loc main_arg4) (ix2 (row t p) j)
  unfold iblk
  rw [View.read_apply]
  show V m c main_arg4 _ = _
  rw [V_main_arg4]
  congr 1
  funext a
  apply Fin.ext
  match a with
  | ⟨0, _⟩ => show win0_5.index t (0 : Fin 2) * 256 + 1 * p.val = (t.val / 12) * 256 + p.val; rw [h0]; omega
  | ⟨1, _⟩ => show win0_5.index t (1 : Fin 2) * 2048 + 1 * j.val = j.val; rw [h1]; omega
theorem blk6_ix (c : Dev nD) (t : Fin cfg0.N) (j : Fin 2048) :
    blk6 m c t (ix2 0 j) = (kargs m c).gw (ix1 j) := by
  obtain ⟨h0, h1⟩ := idx6 t
  show iblk m c 6 t (ix2 (0 : Fin 1) j) = _
  unfold iblk
  rw [View.read_apply]
  show (V m c main_v7 : S1x2048.Idx → EReal) _ = _
  have e : (((cfg0.win 6).blk t).view.emb (ix2 (0 : Fin 1) j) : S1x2048.Idx) = ix2 (0 : Fin 1) j := by
    funext a
    apply Fin.ext
    match a with
    | ⟨0, _⟩ => show win0_6.index t (0 : Fin 2) * 1 + 1 * 0 = 0; rw [h0]
    | ⟨1, _⟩ => show win0_6.index t (1 : Fin 2) * 2048 + 1 * j.val = j.val; rw [h1]; omega
  rw [e, v7_eq]
  exact shapeCast_a_1a_apply _ _ 0 j
theorem blk7_ix (c : Dev nD) (t : Fin cfg0.N) (j : Fin 2048) :
    blk7 m c t (ix2 0 j) = (kargs m c).gb (ix1 j) := by
  obtain ⟨h0, h1⟩ := idx7 t
  show iblk m c 7 t (ix2 (0 : Fin 1) j) = _
  unfold iblk
  rw [View.read_apply]
  show (V m c main_v8 : S1x2048.Idx → EReal) _ = _
  have e : (((cfg0.win 7).blk t).view.emb (ix2 (0 : Fin 1) j) : S1x2048.Idx) = ix2 (0 : Fin 1) j := by
    funext a
    apply Fin.ext
    match a with
    | ⟨0, _⟩ => show win0_7.index t (0 : Fin 2) * 1 + 1 * 0 = 0; rw [h0]
    | ⟨1, _⟩ => show win0_7.index t (1 : Fin 2) * 2048 + 1 * j.val = j.val; rw [h1]; omega
  rw [e, v8_eq]
  exact shapeCast_a_1a_apply _ _ 0 j

end Cert.KernelIdeal.Val

end
-- ==== Proof.KernelIdeal.Acc.lean ====
/-
  The kernel's values. By induction over the grid points, the accumulator after the point at row block b and slice k
  holds, at row p and column q, the running sum of Spec.lean over slices 0 … k of the joined contraction, for row
  b·256 + p: at k = 0 the zero fill plus the first slice, afterwards the point before's entry plus this slice (the
  row block does not change within a row of the grid). At k = 11 the accumulator plus the bias is therefore the
  reference's pre-activation (Spec.lean's acc_last_add_bias), and the four stored blocks are the cell's row functions
  of it: rows b·256 … of the four result arrays.
-/
import proofs.«122402_j2551210574034_1_alg».proof.Proof.KernelIdeal.Pieces
import proofs.«122402_j2551210574034_1_alg».proof.Proof.KernelIdeal.PayIdx
import proofs.«122402_j2551210574034_1_alg».proof.Proof.KernelIdeal.Reads
import proofs.«122402_j2551210574034_1_alg».proof.Proof.SpecRow

set_option maxRecDepth 16384

noncomputable section

open Idealize.ShloMosaic Idealize.ShloMosaic.TcCoe Idealize.ShloMosaic.ValueIdx Idealize.SL.Sem
open scoped BigOperators

namespace Cert.KernelIdeal.Val

open Cert.KernelIdeal Cert.KernelIdeal.Gen Cert.KernelIdeal.Fr Cert.SLstm

variable (m : (ℓ : Loc nD τ sig) → Buf (Elt Ideal) ℓ)

theorem acc_congr (a : Args) (r : Fin 4096) (q : Fin 8192) {n n' : ℕ} (e : n = n') (h : n < 12) (h' : n' < 12) :
    acc a r q n h = acc a r q n' h' := by subst e; rfl

/-- The dot product of a point's two operand blocks at (p, q) is the point's slice of the joined contraction. -/
theorem slice_eq (c : Dev nD) (t : Fin cfg0.N) (p : Fin 256) (q : Fin 8192) :
    ∑ kk : Fin 256, blk0 m c t (ix2 p kk) * blk1 m c t (ix2 q kk)
      = slice (kargs m c) (row t p) q ⟨t.val % 12, Nat.mod_lt _ (by decide)⟩ := by
  unfold slice
  refine Finset.sum_congr rfl fun kk _ => ?_
  rw [blk0_ix, blk1_ix]
  rfl

/-- Within a row of the grid the row block does not change. -/
theorem row_succ (n : ℕ) (hn : n + 1 < cfg0.N) (h0 : ¬(n + 1) % 12 = 0) (p : Fin 256) :
    row ⟨n + 1, hn⟩ p = row ⟨n, Nat.lt_of_succ_lt hn⟩ p := by
  apply Fin.ext
  show (n + 1) / 12 * 256 + p.val = n / 12 * 256 + p.val
  have : (n + 1) / 12 = n / 12 := by omega
  rw [this]

/-- THE ACCUMULATOR after the point at position n. -/
theorem scratch_eq (c : Dev nD) : ∀ (n : ℕ) (hn : n < cfg0.N) (p : Fin 256) (q : Fin 8192),
    (outsAt0 m c n hn).2.2.2.2 (ix2 p q) = acc (kargs m c) (row ⟨n, hn⟩ p) q (n % 12) (Nat.mod_lt _ (by decide))
  | 0, hn, p, q => by
    have hA := outsAt0_A m c ⟨0, hn⟩ (Nat.zero_mod _) (fun h => absurd ((Nat.zero_mod 12).symm.trans h) (by decide))
    rw [show outsAt0 m c 0 hn = _ from hA, accA, pay2_ix, pay1_ix, slice_eq]
    exact (acc_congr _ _ _ (Nat.zero_mod 12) _ (by decide)).symm
  | n + 1, hn, p, q => by
    by_cases h0 : (n + 1) % 12 = 0
    · have h1 : ¬(n + 1) % 12 = 11 := by omega
      have hA := outsAt0_A m c ⟨n + 1, hn⟩ h0 h1
      rw [show outsAt0 m c (n + 1) hn = _ from hA, accA, pay2_ix, pay1_ix, slice_eq]
      refine ((acc_congr _ _ _ h0 _ (by decide)).trans ?_).symm
      rw [acc_zero]
      exact congrArg (lit0 + slice (kargs m c) (row ⟨n + 1, hn⟩ p) q ·) (Fin.ext h0.symm)
    · have ih := scratch_eq c n (Nat.lt_of_succ_lt hn) p q
      have hk : (n + 1) % 12 = n % 12 + 1 := by omega
      have hstep : (outsAt0 m c n (Nat.lt_of_succ_lt hn)).2.2.2.2 (ix2 p q)
            + slice (kargs m c) (row ⟨n + 1, hn⟩ p) q ⟨(n + 1) % 12, Nat.mod_lt _ (by decide)⟩
          = acc (kargs m c) (row ⟨n + 1, hn⟩ p) q ((n + 1) % 12) (Nat.mod_lt _ (by decide)) := by
        rw [ih, row_succ n hn h0 p, acc_congr _ _ _ hk _ (by omega), acc_succ]
        exact congrArg (acc (kargs m c) (row ⟨n, Nat.lt_of_succ_lt hn⟩ p) q (n % 12) _ + slice (kargs m c) (row ⟨n, Nat.lt_of_succ_lt hn⟩ p) q ·) (Fin.ext hk)
      by_cases h1 : (n + 1) % 12 = 11
      · have hC := outsAt0_C m c ⟨n + 1, hn⟩ h0 h1
        rw [show outsAt0 m c (n + 1) hn = _ from hC, accC, pay2_ix, slice_eq]
        exact hstep
      · have hB := outsAt0_B m c ⟨n + 1, hn⟩ h0 h1
        rw [show outsAt0 m c (n + 1) hn = _ from hB, accB, pay2_ix, slice_eq]
        exact hstep

/-- The updated accumulator at a point of the last slice, as the body's store spells it. -/
abbrev accLast (c : Dev nD) (t : Fin cfg0.N) : Vec Ideal S256x8192 .f32 :=
  k0_pay2 (blk0 m c t) (blk1 m c t) (outsAt0 m c (t.val - 1) (Nat.lt_of_le_of_lt (Nat.sub_le _ _) t.isLt)).2.2.2.2

/-- At the last slice the accumulator plus the bias is the pre-activation of the block's rows. -/
theorem pre_last (c : Dev nD) (t : Fin cfg0.N) (h0 : ¬t.val % 12 = 0) (h1 : t.val % 12 = 11) (p : Fin 256) (q : Fin 8192) :
    accLast m c t (ix2 p q) + blk2 m c t (ix2 0 q) = pre (kargs m c) (row t p) q := by
  have hs := scratch_eq m c t.val t.isLt p q
  rw [show outsAt0 m c t.val t.isLt = _ from outsAt0_C m c t h0 h1, accC] at hs
  rw [show accLast m c t (ix2 p q) = _ from hs, blk2_ix, acc_congr _ _ _ h1 _ (by decide)]
  exact acc_last_add_bias _ _ _

/-- The four column groups the body loads back, plus the bias pieces: the pre-activation at the gates' columns. -/
theorem cols_pre (c : Dev nD) (t : Fin cfg0.N) (h0 : ¬t.val % 12 = 0) (h1 : t.val % 12 = 11) (g : Fin 4) (off : ℕ) (hoff : off = g.val * 2048)
    (h : off + 2048 ≤ 8192) (p : Fin 256) (j : Fin 2048) :
    colsOf (accLast m c t) off h (ix2 p j) + colsOfB (blk2 m c t) off h (ix2 0 j) = pre (kargs m c) (row t p) (col g j) := by
  rw [colsOf_ix, colsOfB_ix, pre_last m c t h0 h1]
  exact congrArg (pre (kargs m c) (row t p)) (Fin.ext (by subst hoff; rfl))

/-- What a point of the last slice leaves in the four output buffers: rows b·256 … of the cell's four results. -/
theorem out_h (c : Dev nD) (t : Fin cfg0.N) (h0 : ¬t.val % 12 = 0) (h1 : t.val % 12 = 11) (p : Fin 256) (j : Fin 2048) :
    (outsAt0 m c t.val t.isLt).1 (ix2 p j) = Gh (kargs m c) (ix2 (row t p) j) := by
  rw [show outsAt0 m c t.val t.isLt = _ from outsAt0_C m c t h0 h1, outC_h]
  rw [pay3_ix _ _ _ _ _ _ _ _ _ _ _ _ (fun p q => pre (kargs m c) (row t p) q)
    (cols_pre m c t h0 h1 0 0 rfl _) (cols_pre m c t h0 h1 1 2048 rfl _) (cols_pre m c t h0 h1 2 4096 rfl _) (cols_pre m c t h0 h1 3 6144 rfl _)]
  rw [Gh_ix, hNew_row]
  simp only [blk3_ix, blk4_ix, blk6_ix, blk7_ix]
theorem out_c (c : Dev nD) (t : Fin cfg0.N) (h0 : ¬t.val % 12 = 0) (h1 : t.val % 12 = 11) (p : Fin 256) (j : Fin 2048) :
    (outsAt0 m c t.val t.isLt).2.1 (ix2 p j) = Gc (kargs m c) (ix2 (row t p) j) := by
  rw [show outsAt0 m c t.val t.isLt = _ from outsAt0_C m c t h0 h1, outC_c]
  rw [pay8_ix _ _ _ _ _ _ _ (fun p q => pre (kargs m c) (row t p) q)
    (cols_pre m c t h0 h1 0 0 rfl _) (cols_pre m c t h0 h1 1 2048 rfl _) (cols_pre m c t h0 h1 2 4096 rfl _)]
  rw [Gc_ix, cNew_row]
  simp only [blk3_ix]
theorem out_n (c : Dev nD) (t : Fin cfg0.N) (h0 : ¬t.val % 12 = 0) (h1 : t.val % 12 = 11) (p : Fin 256) (j : Fin 2048) :
    (outsAt0 m c t.val t.isLt).2.2.1 (ix2 p j) = Gn (kargs m c) (ix2 (row t p) j) := by
  rw [show outsAt0 m c t.val t.isLt = _ from outsAt0_C m c t h0 h1, outC_n]
  rw [pay9_ix _ _ _ _ _ (fun p q => pre (kargs m c) (row t p) q)
    (cols_pre m c t h0 h1 0 0 rfl _) (cols_pre m c t h0 h1 1 2048 rfl _)]
  rw [Gn_ix, nNew_row]
  simp only [blk4_ix]
theorem out_m (c : Dev nD) (t : Fin cfg0.N) (h0 : ¬t.val % 12 = 0) (h1 : t.val % 12 = 11) (p : Fin 256) (j : Fin 2048) :
    (outsAt0 m c t.val t.isLt).2.2.2.1 (ix2 p j) = Gm (kargs m c) (ix2 (row t p) j) := by
  rw [show outsAt0 m c t.val t.isLt = _ from outsAt0_C m c t h0 h1, outC_m]
  rw [pay7_ix _ _ _ _ _ (fun p q => pre (kargs m c) (row t p) q)
    (cols_pre m c t h0 h1 0 0 rfl _) (cols_pre m c t h0 h1 1 2048 rfl _)]
  rw [Gm_ix, mNew_row]
  simp only [blk5_ix]

end Cert.KernelIdeal.Val

end
-- ==== Proof.KernelIdeal.Blocks.lean ====
/-
  From blocks to arrays. Each of the four result arrays is written back one block of 256 rows at a time, at the
  last slice (k = 11) of each of the sixteen row blocks; those sixteen blocks tile the array. So if what each of those
  points leaves in an output's staging buffer is, entry by entry, rows b·256 … b·256 + 255 of one whole-array function G,
  the array ends holding G.
-/
import proofs.«122402_j2551210574034_1_alg».proof.Proof.KernelIdeal.Frame
import proofs.«122402_j2551210574034_1_alg».proof.Proof.KernelIdeal.Reads
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.Val

open Cert.KernelIdeal Cert.KernelIdeal.Gen Cert.KernelIdeal.Fr

variable (m : (ℓ : Loc nD τ sig) → Buf (Elt Ideal) ℓ)

/-! ## Output window 8: the first result array -/

/-- The block index of output window 8 at grid point t, decided over the grid: on the row axis the point's row block
    t / 12, on the column axis always 0 (the block spans all 2048 columns). -/
theorem idx_rows8 : ∀ t : Fin cfg0.N, win0_8.index t (0 : Fin 2) = t.val / 12 ∧ win0_8.index t (1 : Fin 2) = 0 :=
  (by decide +kernel : ∀ t : Fin grid0.N, _)

/-- Entry (p, j) of the block at point t sits in the array at row (t / 12)·256 + p, column j: on each axis the block
    index times the block's extent plus the coordinate inside the block. -/
theorem emb_blk8 (t : Fin cfg0.N) (p : Fin 256) (j : Fin 2048) :
    ((cfg0.win 8).blk t).view.emb (ix2 p j) = ix2 (row t p) j := by
  obtain ⟨e0, e1⟩ := idx_rows8 t
  funext a; apply Fin.ext
  match a with
  | ⟨0, _⟩ => show win0_8.index t (0 : Fin 2) * 256 + 1 * p.val = (t.val / 12) * 256 + p.val; omega
  | ⟨1, _⟩ => show win0_8.index t (1 : Fin 2) * 2048 + 1 * j.val = j.val; omega

/-- What a flushing point t writes back is its block of G: the block is whole (the blocks tile the array, nothing is cut
    at the array's end), so the write-back is the staging buffer's contents after t, which the hypothesis reads entry by
    entry as G at the entry's place in the array. -/
theorem flushed8_eq (c : Dev nD) (G : FVec Ideal S4096x2048 .f32)
    (hG : ∀ (t : Fin cfg0.N), t.val % 12 = 11 → ∀ (p : Fin 256) (j : Fin 2048),
      (outsAt0 m c t.val t.isLt).1 (ix2 p j) = G (ix2 (row t p) j))
    (t : Fin cfg0.N) (hf : (cfg0.win 8).flush t = true) :
    (dats m 0 c).flushed 8 t = ((cfg0.win 8).blk t).view.read (Elt Ideal) G := by
  show (cfg0.win 8).cut (grid0.coords t) ((dats m 0 c).after 8 t) = _
  rw [after0_8]
  funext y
  obtain ⟨p, j, rfl⟩ : ∃ (p : Fin 256) (j : Fin 2048), y = ix2 p j := ⟨y 0, y 1, eq_ix2 y⟩
  show (outsAt0 m c t.val t.isLt).1 (ix2 p j) = G (((cfg0.win 8).blk t).view.emb (ix2 p j))
  rw [hG t ((flush0_8 t).mp hf) p j, emb_blk8 t p j]

/-- An index of the array is in point t's block iff each coordinate is in the block's range on its axis. -/
theorem mem_blk8 (t : Fin cfg0.N) (i : S4096x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v9_0).slice (win0_8.rect t)).set ↔ _
  rw [View.set_slice_whole, Rect.mem_set_unit]
  exact Iff.rfl

/-- Every index of the array is in a flushing point's block: row r is in row block r / 256, whose last slice is the
    point (r / 256)·12 + 11. -/
theorem cover8 (i : S4096x2048.Idx) :
    ∃ t : Fin cfg0.N, (cfg0.win 8).flush t = true ∧ i ∈ ((cfg0.win 8).blk t).view.set := by
  have hN : cfg0.N = 192 := N_0
  have hi0 : (i 0).val < 4096 := (i 0).isLt
  have hi1 : (i 1).val < 2048 := (i 1).isLt
  obtain ⟨t, ht⟩ : ∃ t : Fin cfg0.N, t.val = ((i 0).val / 256) * 12 + 11 := ⟨⟨((i 0).val / 256) * 12 + 11, by omega⟩, rfl⟩
  obtain ⟨e0, e1⟩ := idx_rows8 t
  refine ⟨t, (flush0_8 t).mpr (by omega), ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 2048 ≤ (i 1).val ∧ (i 1).val < win0_8.index t (1 : Fin 2) * 2048 + 2048; omega

/-- The first result array after the run is G. -/
theorem final8 (c : Dev nD) (G : FVec Ideal S4096x2048 .f32)
    (hG : ∀ (t : Fin cfg0.N), t.val % 12 = 11 → ∀ (p : Fin 256) (j : Fin 2048),
      (outsAt0 m c t.val t.isLt).1 (ix2 p j) = G (ix2 (row t p) j)) :
    (dats m 0 c).arrAt 8 cfg0.N = G :=
  (dats m 0 c).arrAt_eq_of_cover 8 G (fun t hf => flushed8_eq m c G hG t hf) cover8

/-! ## Output window 9: the second result array -/

/-- The block index of output window 9 at grid point t, decided over the grid: on the row axis the point's row block
    t / 12, on the column axis always 0 (the block spans all 2048 columns). -/
theorem idx_rows9 : ∀ t : Fin cfg0.N, win0_9.index t (0 : Fin 2) = t.val / 12 ∧ win0_9.index t (1 : Fin 2) = 0 :=
  (by decide +kernel : ∀ t : Fin grid0.N, _)

/-- Entry (p, j) of the block at point t sits in the array at row (t / 12)·256 + p, column j: on each axis the block
    index times the block's extent plus the coordinate inside the block. -/
theorem emb_blk9 (t : Fin cfg0.N) (p : Fin 256) (j : Fin 2048) :
    ((cfg0.win 9).blk t).view.emb (ix2 p j) = ix2 (row t p) j := by
  obtain ⟨e0, e1⟩ := idx_rows9 t
  funext a; apply Fin.ext
  match a with
  | ⟨0, _⟩ => show win0_9.index t (0 : Fin 2) * 256 + 1 * p.val = (t.val / 12) * 256 + p.val; omega
  | ⟨1, _⟩ => show win0_9.index t (1 : Fin 2) * 2048 + 1 * j.val = j.val; omega

/-- What a flushing point t writes back is its block of G: the block is whole (the blocks tile the array, nothing is cut
    at the array's end), so the write-back is the staging buffer's contents after t, which the hypothesis reads entry by
    entry as G at the entry's place in the array. -/
theorem flushed9_eq (c : Dev nD) (G : FVec Ideal S4096x2048 .f32)
    (hG : ∀ (t : Fin cfg0.N), t.val % 12 = 11 → ∀ (p : Fin 256) (j : Fin 2048),
      (outsAt0 m c t.val t.isLt).2.1 (ix2 p j) = G (ix2 (row t p) j))
    (t : Fin cfg0.N) (hf : (cfg0.win 9).flush t = true) :
    (dats m 0 c).flushed 9 t = ((cfg0.win 9).blk t).view.read (Elt Ideal) G := by
  show (cfg0.win 9).cut (grid0.coords t) ((dats m 0 c).after 9 t) = _
  rw [after0_9]
  funext y
  obtain ⟨p, j, rfl⟩ : ∃ (p : Fin 256) (j : Fin 2048), y = ix2 p j := ⟨y 0, y 1, eq_ix2 y⟩
  show (outsAt0 m c t.val t.isLt).2.1 (ix2 p j) = G (((cfg0.win 9).blk t).view.emb (ix2 p j))
  rw [hG t ((flush0_9 t).mp hf) p j, emb_blk9 t p j]

/-- An index of the array is in point t's block iff each coordinate is in the block's range on its axis. -/
theorem mem_blk9 (t : Fin cfg0.N) (i : S4096x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v9_1).slice (win0_9.rect t)).set ↔ _
  rw [View.set_slice_whole, Rect.mem_set_unit]
  exact Iff.rfl

/-- Every index of the array is in a flushing point's block: row r is in row block r / 256, whose last slice is the
    point (r / 256)·12 + 11. -/
theorem cover9 (i : S4096x2048.Idx) :
    ∃ t : Fin cfg0.N, (cfg0.win 9).flush t = true ∧ i ∈ ((cfg0.win 9).blk t).view.set := by
  have hN : cfg0.N = 192 := N_0
  have hi0 : (i 0).val < 4096 := (i 0).isLt
  have hi1 : (i 1).val < 2048 := (i 1).isLt
  obtain ⟨t, ht⟩ : ∃ t : Fin cfg0.N, t.val = ((i 0).val / 256) * 12 + 11 := ⟨⟨((i 0).val / 256) * 12 + 11, by omega⟩, rfl⟩
  obtain ⟨e0, e1⟩ := idx_rows9 t
  refine ⟨t, (flush0_9 t).mpr (by omega), ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 2048 ≤ (i 1).val ∧ (i 1).val < win0_9.index t (1 : Fin 2) * 2048 + 2048; omega

/-- The second result array after the run is G. -/
theorem final9 (c : Dev nD) (G : FVec Ideal S4096x2048 .f32)
    (hG : ∀ (t : Fin cfg0.N), t.val % 12 = 11 → ∀ (p : Fin 256) (j : Fin 2048),
      (outsAt0 m c t.val t.isLt).2.1 (ix2 p j) = G (ix2 (row t p) j)) :
    (dats m 0 c).arrAt 9 cfg0.N = G :=
  (dats m 0 c).arrAt_eq_of_cover 9 G (fun t hf => flushed9_eq m c G hG t hf) cover9

/-! ## Output window 10: the third result array -/

/-- The block index of output window 10 at grid point t, decided over the grid: on the row axis the point's row block
    t / 12, on the column axis always 0 (the block spans all 2048 columns). -/
theorem idx_rows10 : ∀ t : Fin cfg0.N, win0_10.index t (0 : Fin 2) = t.val / 12 ∧ win0_10.index t (1 : Fin 2) = 0 :=
  (by decide +kernel : ∀ t : Fin grid0.N, _)

/-- Entry (p, j) of the block at point t sits in the array at row (t / 12)·256 + p, column j: on each axis the block
    index times the block's extent plus the coordinate inside the block. -/
theorem emb_blk10 (t : Fin cfg0.N) (p : Fin 256) (j : Fin 2048) :
    ((cfg0.win 10).blk t).view.emb (ix2 p j) = ix2 (row t p) j := by
  obtain ⟨e0, e1⟩ := idx_rows10 t
  funext a; apply Fin.ext
  match a with
  | ⟨0, _⟩ => show win0_10.index t (0 : Fin 2) * 256 + 1 * p.val = (t.val / 12) * 256 + p.val; omega
  | ⟨1, _⟩ => show win0_10.index t (1 : Fin 2) * 2048 + 1 * j.val = j.val; omega

/-- What a flushing point t writes back is its block of G: the block is whole (the blocks tile the array, nothing is cut
    at the array's end), so the write-back is the staging buffer's contents after t, which the hypothesis reads entry by
    entry as G at the entry's place in the array. -/
theorem flushed10_eq (c : Dev nD) (G : FVec Ideal S4096x2048 .f32)
    (hG : ∀ (t : Fin cfg0.N), t.val % 12 = 11 → ∀ (p : Fin 256) (j : Fin 2048),
      (outsAt0 m c t.val t.isLt).2.2.1 (ix2 p j) = G (ix2 (row t p) j))
    (t : Fin cfg0.N) (hf : (cfg0.win 10).flush t = true) :
    (dats m 0 c).flushed 10 t = ((cfg0.win 10).blk t).view.read (Elt Ideal) G := by
  show (cfg0.win 10).cut (grid0.coords t) ((dats m 0 c).after 10 t) = _
  rw [after0_10]
  funext y
  obtain ⟨p, j, rfl⟩ : ∃ (p : Fin 256) (j : Fin 2048), y = ix2 p j := ⟨y 0, y 1, eq_ix2 y⟩
  show (outsAt0 m c t.val t.isLt).2.2.1 (ix2 p j) = G (((cfg0.win 10).blk t).view.emb (ix2 p j))
  rw [hG t ((flush0_10 t).mp hf) p j, emb_blk10 t p j]

/-- An index of the array is in point t's block iff each coordinate is in the block's range on its axis. -/
theorem mem_blk10 (t : Fin cfg0.N) (i : S4096x2048.Idx) :
    i ∈ ((cfg0.win 10).blk t).view.set ↔ ∀ a : Fin 2, win0_10.index t a * S256x2048.size a ≤ (i a).val ∧ (i a).val < win0_10.index t a * S256x2048.size a + S256x2048.size a := by
  show i ∈ ((View.whole main_v9_2).slice (win0_10.rect t)).set ↔ _
  rw [View.set_slice_whole, Rect.mem_set_unit]
  exact Iff.rfl

/-- Every index of the array is in a flushing point's block: row r is in row block r / 256, whose last slice is the
    point (r / 256)·12 + 11. -/
theorem cover10 (i : S4096x2048.Idx) :
    ∃ t : Fin cfg0.N, (cfg0.win 10).flush t = true ∧ i ∈ ((cfg0.win 10).blk t).view.set := by
  have hN : cfg0.N = 192 := N_0
  have hi0 : (i 0).val < 4096 := (i 0).isLt
  have hi1 : (i 1).val < 2048 := (i 1).isLt
  obtain ⟨t, ht⟩ : ∃ t : Fin cfg0.N, t.val = ((i 0).val / 256) * 12 + 11 := ⟨⟨((i 0).val / 256) * 12 + 11, by omega⟩, rfl⟩
  obtain ⟨e0, e1⟩ := idx_rows10 t
  refine ⟨t, (flush0_10 t).mpr (by omega), ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 2048 ≤ (i 1).val ∧ (i 1).val < win0_10.index t (1 : Fin 2) * 2048 + 2048; omega

/-- The third result array after the run is G. -/
theorem final10 (c : Dev nD) (G : FVec Ideal S4096x2048 .f32)
    (hG : ∀ (t : Fin cfg0.N), t.val % 12 = 11 → ∀ (p : Fin 256) (j : Fin 2048),
      (outsAt0 m c t.val t.isLt).2.2.1 (ix2 p j) = G (ix2 (row t p) j)) :
    (dats m 0 c).arrAt 10 cfg0.N = G :=
  (dats m 0 c).arrAt_eq_of_cover 10 G (fun t hf => flushed10_eq m c G hG t hf) cover10

/-! ## Output window 11: the fourth result array -/

/-- The block index of output window 11 at grid point t, decided over the grid: on the row axis the point's row block
    t / 12, on the column axis always 0 (the block spans all 2048 columns). -/
theorem idx_rows11 : ∀ t : Fin cfg0.N, win0_11.index t (0 : Fin 2) = t.val / 12 ∧ win0_11.index t (1 : Fin 2) = 0 :=
  (by decide +kernel : ∀ t : Fin grid0.N, _)

/-- Entry (p, j) of the block at point t sits in the array at row (t / 12)·256 + p, column j: on each axis the block
    index times the block's extent plus the coordinate inside the block. -/
theorem emb_blk11 (t : Fin cfg0.N) (p : Fin 256) (j : Fin 2048) :
    ((cfg0.win 11).blk t).view.emb (ix2 p j) = ix2 (row t p) j := by
  obtain ⟨e0, e1⟩ := idx_rows11 t
  funext a; apply Fin.ext
  match a with
  | ⟨0, _⟩ => show win0_11.index t (0 : Fin 2) * 256 + 1 * p.val = (t.val / 12) * 256 + p.val; omega
  | ⟨1, _⟩ => show win0_11.index t (1 : Fin 2) * 2048 + 1 * j.val = j.val; omega

/-- What a flushing point t writes back is its block of G: the block is whole (the blocks tile the array, nothing is cut
    at the array's end), so the write-back is the staging buffer's contents after t, which the hypothesis reads entry by
    entry as G at the entry's place in the array. -/
theorem flushed11_eq (c : Dev nD) (G : FVec Ideal S4096x2048 .f32)
    (hG : ∀ (t : Fin cfg0.N), t.val % 12 = 11 → ∀ (p : Fin 256) (j : Fin 2048),
      (outsAt0 m c t.val t.isLt).2.2.2.1 (ix2 p j) = G (ix2 (row t p) j))
    (t : Fin cfg0.N) (hf : (cfg0.win 11).flush t = true) :
    (dats m 0 c).flushed 11 t = ((cfg0.win 11).blk t).view.read (Elt Ideal) G := by
  show (cfg0.win 11).cut (grid0.coords t) ((dats m 0 c).after 11 t) = _
  rw [after0_11]
  funext y
  obtain ⟨p, j, rfl⟩ : ∃ (p : Fin 256) (j : Fin 2048), y = ix2 p j := ⟨y 0, y 1, eq_ix2 y⟩
  show (outsAt0 m c t.val t.isLt).2.2.2.1 (ix2 p j) = G (((cfg0.win 11).blk t).view.emb (ix2 p j))
  rw [hG t ((flush0_11 t).mp hf) p j, emb_blk11 t p j]

/-- An index of the array is in point t's block iff each coordinate is in the block's range on its axis. -/
theorem mem_blk11 (t : Fin cfg0.N) (i : S4096x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v9_3).slice (win0_11.rect t)).set ↔ _
  rw [View.set_slice_whole, Rect.mem_set_unit]
  exact Iff.rfl

/-- Every index of the array is in a flushing point's block: row r is in row block r / 256, whose last slice is the
    point (r / 256)·12 + 11. -/
theorem cover11 (i : S4096x2048.Idx) :
    ∃ t : Fin cfg0.N, (cfg0.win 11).flush t = true ∧ i ∈ ((cfg0.win 11).blk t).view.set := by
  have hN : cfg0.N = 192 := N_0
  have hi0 : (i 0).val < 4096 := (i 0).isLt
  have hi1 : (i 1).val < 2048 := (i 1).isLt
  obtain ⟨t, ht⟩ : ∃ t : Fin cfg0.N, t.val = ((i 0).val / 256) * 12 + 11 := ⟨⟨((i 0).val / 256) * 12 + 11, by omega⟩, rfl⟩
  obtain ⟨e0, e1⟩ := idx_rows11 t
  refine ⟨t, (flush0_11 t).mpr (by omega), ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 2048 ≤ (i 1).val ∧ (i 1).val < win0_11.index t (1 : Fin 2) * 2048 + 2048; omega

/-- The fourth result array after the run is G. -/
theorem final11 (c : Dev nD) (G : FVec Ideal S4096x2048 .f32)
    (hG : ∀ (t : Fin cfg0.N), t.val % 12 = 11 → ∀ (p : Fin 256) (j : Fin 2048),
      (outsAt0 m c t.val t.isLt).2.2.2.1 (ix2 p j) = G (ix2 (row t p) j)) :
    (dats m 0 c).arrAt 11 cfg0.N = G :=
  (dats m 0 c).arrAt_eq_of_cover 11 G (fun t hf => flushed11_eq m c G hG t hf) cover11

end Cert.KernelIdeal.Val

end
-- ==== Proof.KernelIdeal.Vals.lean ====
/-
  The idealized kernel's run with its results named: every weakly fair execution terminates with the four result arrays
  holding the cell's four functions of the launch arrays (Spec.lean), and the nineteen argument arrays as launched.
  Each result array ends at what the pipeline's proof data computes from the write-backs; the sixteen blocks written back
  at the last slice tile it (Blocks.lean) and each is the cell's function on its rows (Acc.lean).
-/
import proofs.«122402_j2551210574034_1_alg».proof.Proof.KernelIdeal.Acc
import proofs.«122402_j2551210574034_1_alg».proof.Proof.KernelIdeal.Blocks

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.Val

open Cert.KernelIdeal Cert.KernelIdeal.Gen Cert.KernelIdeal.Fr Cert.SLstm

variable (m : (ℓ : Loc nD τ sig) → Buf (Elt Ideal) ℓ) (ρ : Dev nD → PrngReg)

/-- A point of the last slice is not a point of the first. -/
theorem not_first {t : Fin cfg0.N} (h1 : t.val % 12 = 11) : ¬t.val % 12 = 0 := by omega

theorem run_vals :
    θ_run (defs (F := Ideal)) (onTc (τ := τ) (main (F := Ideal))) ⟨m, fun _ => 0, ρ⟩ (fun r => ∀ c : Dev nD,
      r.2.mem ((c.tc : Thread nD τ).loc main_v9_0) = Gh (kargs m c)
      ∧ r.2.mem ((c.tc : Thread nD τ).loc main_v9_1) = Gc (kargs m c)
      ∧ r.2.mem ((c.tc : Thread nD τ).loc main_v9_2) = Gn (kargs m c)
      ∧ r.2.mem ((c.tc : Thread nD τ).loc main_v9_3) = Gm (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      ((h c).1 8).trans (final8 m c _ fun t h1 p j => out_h m c t (not_first h1) h1 p j),
      ((h c).1 9).trans (final9 m c _ fun t h1 p j => out_c m c t (not_first h1) h1 p j),
      ((h c).1 10).trans (final10 m c _ fun t h1 p j => out_n m c t (not_first h1) h1 p j),
      ((h c).1 11).trans (final11 m c _ fun t h1 p j => out_m m c t (not_first h1) h1 p j),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main (F := Ideal) m ρ)

end Cert.KernelIdeal.Val

end
-- ==== Proof.RefSide.lean ====
/-
  The reference's four results are the cell's functions of its argument arrays (Spec.lean), index by index:
  the two dot products read as sums over the contracted axis, the slices of the joined pre-activation read at
  the gate's columns, jax's expansion of the logistic (1 / (1 + exp (−x))) read as the logistic, the two row
  reductions as sums over the row with the zero initial value dropped.
  The row-wise concatenations of the weights, biases and recurrent weights are carried whole and never opened.
-/
import proofs.«122402_j2551210574034_1_alg».proof.Proof.RefRead
import proofs.«122402_j2551210574034_1_alg».proof.Proof.Spec

noncomputable section

open Idealize.ShloMosaic Idealize.ShloMosaic.ValueIdx
open scoped BigOperators

namespace Cert.SLstm.Ref

open Cert.ReferenceIdeal Cert.ReferenceIdeal.ReadP

variable (x0 : (⟨S4096x1024, .f32⟩ : BufTy).Contents (Elt Ideal)) (x1 x2 x3 x4 : (⟨S4096x2048, .f32⟩ : BufTy).Contents (Elt Ideal))
  (x5 x6 x7 x8 : (⟨S2048x1024, .f32⟩ : BufTy).Contents (Elt Ideal)) (x9 x10 x11 x12 : (⟨S2048, .f32⟩ : BufTy).Contents (Elt Ideal))
  (x13 x14 x15 x16 : (⟨S2048x2048, .f32⟩ : BufTy).Contents (Elt Ideal)) (x17 x18 : (⟨S2048, .f32⟩ : BufTy).Contents (Elt Ideal))

/-- The cell's arrays, from the reference's nineteen arguments: the three concatenations as the reference forms them. -/
def args : Cert.SLstm.Args :=
  ⟨x0, x1, x2, x3, x4, val_main_v0 (F := Ideal) x5 x6 x7 x8, val_main_v1 (F := Ideal) x9 x10 x11 x12,
    val_main_v2 (F := Ideal) x13 x14 x15 x16, x17, x18⟩

/-! ## The literal one, and the logistic written out -/

/-- The word of 1.0 is the extended real 1. -/
theorem one_f32 : Ideal.ofBits .f32 0x3F800000#32 = 1 := by
  simp [Ideal.ofBits, Ideal.ieee, -EReal.coe_mul]; norm_num

/-- 1 / (1 + exp (−p)) in the host's operations is the logistic of p. -/
theorem logistic_host (p : Ideal .f32) :
    FloatOps.hostDivf (FloatOps.ofBits .f32 0x3F800000#32)
        (FloatOps.addf (FloatOps.ofBits .f32 0x3F800000#32) (FloatOps.hostUnary .exp (FloatOps.hostNegf p)))
      = Ideal.logistic p := by
  show Ideal.div (Ideal.ofBits .f32 0x3F800000#32) (Ideal.ofBits .f32 0x3F800000#32 + Ideal.exp (-p)) = Ideal.logistic p
  rw [one_f32]; rfl

/-! ## The composed index maps, at an index given by its coordinates -/

theorem lidx4_ix (r : Fin 4096) (q : Fin 8192) (k : Fin 1024) : lidx_main_v4 (ix2 r q) k = ix2 r k :=
  funext fun a => Fin.ext (by match a with | ⟨0, _⟩ => rfl | ⟨1, _⟩ => rfl)
theorem ridx4_ix (r : Fin 4096) (q : Fin 8192) (k : Fin 1024) : idx_main_v3 (ridx_main_v4 (ix2 r q) k) = ix2 q k :=
  funext fun a => Fin.ext (by match a with | ⟨0, _⟩ => rfl | ⟨1, _⟩ => rfl)
theorem bidx_ix (r : Fin 4096) (q : Fin 8192) : idx_main_v5 (idx_main_v6 (ix2 r q)) = ix1 q :=
  funext fun a => Fin.ext (by match a with | ⟨0, _⟩ => rfl)
theorem lidx9_ix (r : Fin 4096) (q : Fin 8192) (k : Fin 2048) : lidx_main_v9 (ix2 r q) k = ix2 r k :=
  funext fun a => Fin.ext (by match a with | ⟨0, _⟩ => rfl | ⟨1, _⟩ => rfl)
theorem ridx9_ix (r : Fin 4096) (q : Fin 8192) (k : Fin 2048) : idx_main_v8 (ridx_main_v9 (ix2 r q) k) = ix2 q k :=
  funext fun a => Fin.ext (by match a with | ⟨0, _⟩ => rfl | ⟨1, _⟩ => rfl)

/-- The four slices read the joined matrix at the gate's column. -/
theorem idx11_ix (r : Fin 4096) (j : Fin 2048) : idx_main_v11 (ix2 r j) = ix2 r (Cert.SLstm.col 0 j) :=
  funext fun a => Fin.ext (by
    match a with
    | ⟨0, _⟩ => rfl
    | ⟨1, _⟩ => show j.val = (0 : Fin 4).val * 2048 + j.val; simp)
theorem idx12_ix (r : Fin 4096) (j : Fin 2048) : idx_main_v12 (ix2 r j) = ix2 r (Cert.SLstm.col 1 j) :=
  funext fun a => Fin.ext (by
    match a with
    | ⟨0, _⟩ => rfl
    | ⟨1, _⟩ => show 2048 + j.val = (1 : Fin 4).val * 2048 + j.val; simp)
theorem idx13_ix (r : Fin 4096) (j : Fin 2048) : idx_main_v13 (ix2 r j) = ix2 r (Cert.SLstm.col 2 j) :=
  funext fun a => Fin.ext (by
    match a with
    | ⟨0, _⟩ => rfl
    | ⟨1, _⟩ => show 4096 + j.val = (2 : Fin 4).val * 2048 + j.val; simp)
theorem idx14_ix (r : Fin 4096) (j : Fin 2048) : idx_main_v14 (ix2 r j) = ix2 r (Cert.SLstm.col 3 j) :=
  funext fun a => Fin.ext (by
    match a with
    | ⟨0, _⟩ => rfl
    | ⟨1, _⟩ => show 6144 + j.val = (3 : Fin 4).val * 2048 + j.val; simp)

/-- The row sums read row r. -/
theorem idx42_ix (r : Fin 4096) (j k : Fin 2048) : idx_main_v42 (idx_main_v43 (idx_main_v46 (ix2 r j))) k = ix2 r k :=
  funext fun a => Fin.ext (by match a with | ⟨0, _⟩ => rfl | ⟨1, _⟩ => rfl)
theorem idx42'_ix (r : Fin 4096) (j k : Fin 2048) : idx_main_v42 (idx_main_v43 (idx_main_v53 (ix2 r j))) k = ix2 r k :=
  funext fun a => Fin.ext (by match a with | ⟨0, _⟩ => rfl | ⟨1, _⟩ => rfl)
theorem idx49_ix (r : Fin 4096) (j k : Fin 2048) : idx_main_v49 (idx_main_v50 (idx_main_v58 (ix2 r j))) k = ix2 r k :=
  funext fun a => Fin.ext (by match a with | ⟨0, _⟩ => rfl | ⟨1, _⟩ => rfl)
/-- The scale and the shift read column j. -/
theorem idx60_ix (r : Fin 4096) (j : Fin 2048) : idx_main_v60 (idx_main_v61 (ix2 r j)) = ix1 j :=
  funext fun a => Fin.ext (by match a with | ⟨0, _⟩ => rfl)
theorem idx63_ix (r : Fin 4096) (j : Fin 2048) : idx_main_v63 (idx_main_v64 (ix2 r j)) = ix1 j :=
  funext fun a => Fin.ext (by match a with | ⟨0, _⟩ => rfl)

/-! ## The joined pre-activation -/

theorem pre_eq (r : Fin 4096) (q : Fin 8192) :
    val_main_v10 (F := Ideal) x0 x1 x5 x6 x7 x8 x9 x10 x11 x12 x13 x14 x15 x16 (ix2 r q) = Cert.SLstm.pre (args x0 x1 x2 x3 x4 x5 x6 x7 x8 x9 x10 x11 x12 x13 x14 x15 x16 x17 x18) r q := by
  rw [val_main_v10_apply, val_main_v7_apply, val_main_v4_apply, val_main_v6_apply, val_main_v5_apply, val_main_v9_apply]
  simp only [val_main_v3_apply, val_main_v8_apply, lidx4_ix, ridx4_ix, bidx_ix, lidx9_ix, ridx9_ix]
  rfl

/-! ## The gates -/

theorem ig_eq (r : Fin 4096) (j : Fin 2048) :
    val_main_v20 (F := Ideal) x0 x1 x5 x6 x7 x8 x9 x10 x11 x12 x13 x14 x15 x16 (ix2 r j) = Cert.SLstm.ig (args x0 x1 x2 x3 x4 x5 x6 x7 x8 x9 x10 x11 x12 x13 x14 x15 x16 x17 x18) r j := by
  rw [val_main_v20_apply, val_main_v19_apply, val_main_cst_0_apply, val_main_v18_apply, val_main_v17_apply, val_main_cst_apply,
    val_main_v16_apply, val_main_v15_apply, val_main_v11_apply, idx11_ix, pre_eq x0 x1 x2 x3 x4 x5 x6 x7 x8 x9 x10 x11 x12 x13 x14 x15 x16 x17 x18]
  exact logistic_host _

theorem fg_eq (r : Fin 4096) (j : Fin 2048) :
    val_main_v26 (F := Ideal) x0 x1 x5 x6 x7 x8 x9 x10 x11 x12 x13 x14 x15 x16 (ix2 r j) = Cert.SLstm.fg (args x0 x1 x2 x3 x4 x5 x6 x7 x8 x9 x10 x11 x12 x13 x14 x15 x16 x17 x18) r j := by
  rw [val_main_v26_apply, val_main_v25_apply, val_main_cst_2_apply, val_main_v24_apply, val_main_v23_apply, val_main_cst_1_apply,
    val_main_v22_apply, val_main_v21_apply, val_main_v12_apply, idx12_ix, pre_eq x0 x1 x2 x3 x4 x5 x6 x7 x8 x9 x10 x11 x12 x13 x14 x15 x16 x17 x18]
  exact logistic_host _

theorem zg_eq (r : Fin 4096) (j : Fin 2048) :
    val_main_v27 (F := Ideal) x0 x1 x5 x6 x7 x8 x9 x10 x11 x12 x13 x14 x15 x16 (ix2 r j) = Cert.SLstm.zg (args x0 x1 x2 x3 x4 x5 x6 x7 x8 x9 x10 x11 x12 x13 x14 x15 x16 x17 x18) r j := by
  rw [val_main_v27_apply, val_main_v13_apply, idx13_ix, pre_eq x0 x1 x2 x3 x4 x5 x6 x7 x8 x9 x10 x11 x12 x13 x14 x15 x16 x17 x18]
  rfl

theorem og_eq (r : Fin 4096) (j : Fin 2048) :
    val_main_v33 (F := Ideal) x0 x1 x5 x6 x7 x8 x9 x10 x11 x12 x13 x14 x15 x16 (ix2 r j) = Cert.SLstm.og (args x0 x1 x2 x3 x4 x5 x6 x7 x8 x9 x10 x11 x12 x13 x14 x15 x16 x17 x18) r j := by
  rw [val_main_v33_apply, val_main_v32_apply, val_main_cst_4_apply, val_main_v31_apply, val_main_v30_apply, val_main_cst_3_apply,
    val_main_v29_apply, val_main_v28_apply, val_main_v14_apply, idx14_ix, pre_eq x0 x1 x2 x3 x4 x5 x6 x7 x8 x9 x10 x11 x12 x13 x14 x15 x16 x17 x18]
  exact logistic_host _

/-! ## The new states -/

theorem mNew_eq (r : Fin 4096) (j : Fin 2048) :
    val_main_v35 (F := Ideal) x0 x1 x4 x5 x6 x7 x8 x9 x10 x11 x12 x13 x14 x15 x16 (ix2 r j) = Cert.SLstm.mNew (args x0 x1 x2 x3 x4 x5 x6 x7 x8 x9 x10 x11 x12 x13 x14 x15 x16 x17 x18) r j := by
  rw [val_main_v35_apply, val_main_v34_apply, fg_eq x0 x1 x2 x3 x4 x5 x6 x7 x8 x9 x10 x11 x12 x13 x14 x15 x16 x17 x18, ig_eq x0 x1 x2 x3 x4 x5 x6 x7 x8 x9 x10 x11 x12 x13 x14 x15 x16 x17 x18]
  rfl

theorem cNew_eq (r : Fin 4096) (j : Fin 2048) :
    val_main_v38 (F := Ideal) x0 x1 x2 x5 x6 x7 x8 x9 x10 x11 x12 x13 x14 x15 x16 (ix2 r j) = Cert.SLstm.cNew (args x0 x1 x2 x3 x4 x5 x6 x7 x8 x9 x10 x11 x12 x13 x14 x15 x16 x17 x18) r j := by
  rw [val_main_v38_apply, val_main_v36_apply, val_main_v37_apply, fg_eq x0 x1 x2 x3 x4 x5 x6 x7 x8 x9 x10 x11 x12 x13 x14 x15 x16 x17 x18, ig_eq x0 x1 x2 x3 x4 x5 x6 x7 x8 x9 x10 x11 x12 x13 x14 x15 x16 x17 x18, zg_eq x0 x1 x2 x3 x4 x5 x6 x7 x8 x9 x10 x11 x12 x13 x14 x15 x16 x17 x18]
  rfl

theorem nNew_eq (r : Fin 4096) (j : Fin 2048) :
    val_main_v40 (F := Ideal) x0 x1 x3 x5 x6 x7 x8 x9 x10 x11 x12 x13 x14 x15 x16 (ix2 r j) = Cert.SLstm.nNew (args x0 x1 x2 x3 x4 x5 x6 x7 x8 x9 x10 x11 x12 x13 x14 x15 x16 x17 x18) r j := by
  rw [val_main_v40_apply, val_main_v39_apply, fg_eq x0 x1 x2 x3 x4 x5 x6 x7 x8 x9 x10 x11 x12 x13 x14 x15 x16 x17 x18, ig_eq x0 x1 x2 x3 x4 x5 x6 x7 x8 x9 x10 x11 x12 x13 x14 x15 x16 x17 x18]
  rfl

/-! ## The stabilized cell state and its row statistics -/

theorem cStab_eq (r : Fin 4096) (j : Fin 2048) :
    val_main_v41 (F := Ideal) x0 x1 x2 x3 x5 x6 x7 x8 x9 x10 x11 x12 x13 x14 x15 x16 (ix2 r j) = Cert.SLstm.cStab (args x0 x1 x2 x3 x4 x5 x6 x7 x8 x9 x10 x11 x12 x13 x14 x15 x16 x17 x18) r j := by
  rw [val_main_v41_apply, cNew_eq x0 x1 x2 x3 x4 x5 x6 x7 x8 x9 x10 x11 x12 x13 x14 x15 x16 x17 x18, nNew_eq x0 x1 x2 x3 x4 x5 x6 x7 x8 x9 x10 x11 x12 x13 x14 x15 x16 x17 x18]
  rfl

/-- The row mean, as the first deviation reads it. -/
theorem mu_eq (r : Fin 4096) (j : Fin 2048) :
    val_main_v46 (F := Ideal) x0 x1 x2 x3 x5 x6 x7 x8 x9 x10 x11 x12 x13 x14 x15 x16 (ix2 r j) = Cert.SLstm.mu (args x0 x1 x2 x3 x4 x5 x6 x7 x8 x9 x10 x11 x12 x13 x14 x15 x16 x17 x18) r := by
  rw [val_main_v46_apply, val_main_v45_apply, val_main_v43_apply, val_main_v44_apply, val_main_cst_6_apply, val_main_v42_apply,
    val_main_cst_5_apply]
  simp only [idx42_ix, cStab_eq x0 x1 x2 x3 x4 x5 x6 x7 x8 x9 x10 x11 x12 x13 x14 x15 x16 x17 x18]
  rw [Ideal.ofBits_def, Ideal.ofBits_zero_f32, zero_add]
  rfl

/-- The row mean, as the second deviation reads it. -/
theorem mu_eq' (r : Fin 4096) (j : Fin 2048) :
    val_main_v53 (F := Ideal) x0 x1 x2 x3 x5 x6 x7 x8 x9 x10 x11 x12 x13 x14 x15 x16 (ix2 r j) = Cert.SLstm.mu (args x0 x1 x2 x3 x4 x5 x6 x7 x8 x9 x10 x11 x12 x13 x14 x15 x16 x17 x18) r := by
  rw [val_main_v53_apply, val_main_v45_apply, val_main_v43_apply, val_main_v44_apply, val_main_cst_6_apply, val_main_v42_apply,
    val_main_cst_5_apply]
  simp only [idx42'_ix, cStab_eq x0 x1 x2 x3 x4 x5 x6 x7 x8 x9 x10 x11 x12 x13 x14 x15 x16 x17 x18]
  rw [Ideal.ofBits_def, Ideal.ofBits_zero_f32, zero_add]
  rfl

theorem dev_eq (r : Fin 4096) (j : Fin 2048) :
    val_main_v47 (F := Ideal) x0 x1 x2 x3 x5 x6 x7 x8 x9 x10 x11 x12 x13 x14 x15 x16 (ix2 r j) = Cert.SLstm.dev (args x0 x1 x2 x3 x4 x5 x6 x7 x8 x9 x10 x11 x12 x13 x14 x15 x16 x17 x18) r j := by
  rw [val_main_v47_apply, cStab_eq x0 x1 x2 x3 x4 x5 x6 x7 x8 x9 x10 x11 x12 x13 x14 x15 x16 x17 x18, mu_eq x0 x1 x2 x3 x4 x5 x6 x7 x8 x9 x10 x11 x12 x13 x14 x15 x16 x17 x18]
  rfl

theorem dev_eq' (r : Fin 4096) (j : Fin 2048) :
    val_main_v54 (F := Ideal) x0 x1 x2 x3 x5 x6 x7 x8 x9 x10 x11 x12 x13 x14 x15 x16 (ix2 r j) = Cert.SLstm.dev (args x0 x1 x2 x3 x4 x5 x6 x7 x8 x9 x10 x11 x12 x13 x14 x15 x16 x17 x18) r j := by
  rw [val_main_v54_apply, cStab_eq x0 x1 x2 x3 x4 x5 x6 x7 x8 x9 x10 x11 x12 x13 x14 x15 x16 x17 x18, mu_eq' x0 x1 x2 x3 x4 x5 x6 x7 x8 x9 x10 x11 x12 x13 x14 x15 x16 x17 x18]
  rfl

/-- The reciprocal square root of the row variance plus epsilon, broadcast along the row. -/
theorem rs_eq (r : Fin 4096) (j : Fin 2048) :
    val_main_v58 (F := Ideal) x0 x1 x2 x3 x5 x6 x7 x8 x9 x10 x11 x12 x13 x14 x15 x16 (ix2 r j)
      = Ideal.rsqrt (Cert.SLstm.var (args x0 x1 x2 x3 x4 x5 x6 x7 x8 x9 x10 x11 x12 x13 x14 x15 x16 x17 x18) r + Cert.SLstm.litEps) := by
  rw [val_main_v58_apply, val_main_v57_apply, val_main_v56_apply, val_main_v52_apply, val_main_v50_apply, val_main_v51_apply,
    val_main_cst_8_apply, val_main_v55_apply, val_main_cst_9_apply, val_main_v49_apply, val_main_cst_7_apply]
  simp only [val_main_v48_apply, idx49_ix, dev_eq x0 x1 x2 x3 x4 x5 x6 x7 x8 x9 x10 x11 x12 x13 x14 x15 x16 x17 x18]
  rw [Ideal.ofBits_def, Ideal.ofBits_zero_f32, zero_add]
  rfl

/-! ## The new hidden state -/

theorem hNew_eq (r : Fin 4096) (j : Fin 2048) :
    val_main_v67 (F := Ideal) x0 x1 x2 x3 x5 x6 x7 x8 x9 x10 x11 x12 x13 x14 x15 x16 x17 x18 (ix2 r j) = Cert.SLstm.hNew (args x0 x1 x2 x3 x4 x5 x6 x7 x8 x9 x10 x11 x12 x13 x14 x15 x16 x17 x18) r j := by
  rw [val_main_v67_apply, val_main_v66_apply, val_main_v65_apply, val_main_v62_apply, val_main_v59_apply, val_main_v61_apply,
    val_main_v60_apply, val_main_v64_apply, val_main_v63_apply, idx60_ix, idx63_ix, og_eq x0 x1 x2 x3 x4 x5 x6 x7 x8 x9 x10 x11 x12 x13 x14 x15 x16 x17 x18, dev_eq' x0 x1 x2 x3 x4 x5 x6 x7 x8 x9 x10 x11 x12 x13 x14 x15 x16 x17 x18, rs_eq x0 x1 x2 x3 x4 x5 x6 x7 x8 x9 x10 x11 x12 x13 x14 x15 x16 x17 x18]
  rfl

/-! ## The four results -/

theorem h_eq : val_main_v67 (F := Ideal) x0 x1 x2 x3 x5 x6 x7 x8 x9 x10 x11 x12 x13 x14 x15 x16 x17 x18
    = Cert.SLstm.Gh (args x0 x1 x2 x3 x4 x5 x6 x7 x8 x9 x10 x11 x12 x13 x14 x15 x16 x17 x18) := by
  funext i
  obtain ⟨r, j, rfl⟩ : ∃ (r : Fin 4096) (j : Fin 2048), i = ix2 r j := ⟨i 0, i 1, eq_ix2 i⟩
  rw [Cert.SLstm.Gh_ix]
  exact hNew_eq x0 x1 x2 x3 x4 x5 x6 x7 x8 x9 x10 x11 x12 x13 x14 x15 x16 x17 x18 r j

theorem c_eq : val_main_v38 (F := Ideal) x0 x1 x2 x5 x6 x7 x8 x9 x10 x11 x12 x13 x14 x15 x16
    = Cert.SLstm.Gc (args x0 x1 x2 x3 x4 x5 x6 x7 x8 x9 x10 x11 x12 x13 x14 x15 x16 x17 x18) := by
  funext i
  obtain ⟨r, j, rfl⟩ : ∃ (r : Fin 4096) (j : Fin 2048), i = ix2 r j := ⟨i 0, i 1, eq_ix2 i⟩
  rw [Cert.SLstm.Gc_ix]
  exact cNew_eq x0 x1 x2 x3 x4 x5 x6 x7 x8 x9 x10 x11 x12 x13 x14 x15 x16 x17 x18 r j

theorem n_eq : val_main_v40 (F := Ideal) x0 x1 x3 x5 x6 x7 x8 x9 x10 x11 x12 x13 x14 x15 x16
    = Cert.SLstm.Gn (args x0 x1 x2 x3 x4 x5 x6 x7 x8 x9 x10 x11 x12 x13 x14 x15 x16 x17 x18) := by
  funext i
  obtain ⟨r, j, rfl⟩ : ∃ (r : Fin 4096) (j : Fin 2048), i = ix2 r j := ⟨i 0, i 1, eq_ix2 i⟩
  rw [Cert.SLstm.Gn_ix]
  exact nNew_eq x0 x1 x2 x3 x4 x5 x6 x7 x8 x9 x10 x11 x12 x13 x14 x15 x16 x17 x18 r j

theorem m_eq : val_main_v35 (F := Ideal) x0 x1 x4 x5 x6 x7 x8 x9 x10 x11 x12 x13 x14 x15 x16
    = Cert.SLstm.Gm (args x0 x1 x2 x3 x4 x5 x6 x7 x8 x9 x10 x11 x12 x13 x14 x15 x16 x17 x18) := by
  funext i
  obtain ⟨r, j, rfl⟩ : ∃ (r : Fin 4096) (j : Fin 2048), i = ix2 r j := ⟨i 0, i 1, eq_ix2 i⟩
  rw [Cert.SLstm.Gm_ix]
  exact mNew_eq x0 x1 x2 x3 x4 x5 x6 x7 x8 x9 x10 x11 x12 x13 x14 x15 x16 x17 x18 r j

end Cert.SLstm.Ref

end
-- ==== Proof.lean ====
/-
  The certificate of the sLSTM cell kernel against its reference.
  Both frames of the kernel (the word-level program and its idealization) are the pipeline's frame run with the body run
  once per control case (KernelIdeal/Frame.lean and its word-level twin); the reference's frame is its run with the
  results dropped. The idealization rewrote nothing, so there is nothing to preserve. Over the extended reals the kernel's
  four result arrays and the reference's are the same four functions of the argument arrays (Spec.lean): the kernel sums
  the joined contraction of x‖h against W‖R in twelve slices from zero and adds the bias last, the reference adds the bias
  between its two dot products, and addition is commutative and associative; everything after the pre-activation is the same
  chain of operations on both sides, the reference's expanded logistic being the logistic.
-/
import proofs.«122402_j2551210574034_1_alg».proof.Defs
import proofs.«122402_j2551210574034_1_alg».proof.Proof.Gen.Kernel
import proofs.«122402_j2551210574034_1_alg».proof.Proof.Gen.KernelIdeal
import proofs.«122402_j2551210574034_1_alg».proof.Proof.Gen.ReferenceIdeal
import proofs.«122402_j2551210574034_1_alg».proof.Proof.Gen.Pre_finite_inputs
import proofs.«122402_j2551210574034_1_alg».proof.Proof.Kernel.Frame
import proofs.«122402_j2551210574034_1_alg».proof.Proof.KernelIdeal.Vals
import proofs.«122402_j2551210574034_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Cert.SLstm

theorem frame_k : Cert.frame_Kernel (hKernel := Cert.Kernel.Gen.facts) (hPre_finite_inputs := Cert.Pre_finite_inputs.Gen.facts) :=
  fun m ρ _ => Cert.Kernel.Fr.frame m ρ
theorem frame_ki : Cert.frame_KernelIdeal (hKernelIdeal := Cert.KernelIdeal.Gen.facts) (hPre_finite_inputs := Cert.Pre_finite_inputs.Gen.facts) :=
  fun m ρ _ => Cert.KernelIdeal.Fr.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.ValueP.run (F := Ideal) m ρ)

/-- The reference's run with its four results named as the cell's functions of ITS arguments. -/
theorem ref_vals (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v67) = Gh (Cert.SLstm.Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))
      ∧ r.2.mem ((c.tc : Thread Cert.ReferenceIdeal.nD Cert.ReferenceIdeal.τ).loc Cert.ReferenceIdeal.main_v38) = Gc (Cert.SLstm.Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))
      ∧ r.2.mem ((c.tc : Thread Cert.ReferenceIdeal.nD Cert.ReferenceIdeal.τ).loc Cert.ReferenceIdeal.main_v40) = Gn (Cert.SLstm.Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))
      ∧ r.2.mem ((c.tc : Thread Cert.ReferenceIdeal.nD Cert.ReferenceIdeal.τ).loc Cert.ReferenceIdeal.main_v35) = Gm (Cert.SLstm.Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run Cert.ReferenceIdeal.defs _ _).mono (fun _ h c => ⟨
      (h c).1.trans ((Cert.ReferenceIdeal.ReadP.val_main_v67_eq m' c).trans (Cert.SLstm.Ref.h_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))),
      (h c).2.1.trans ((Cert.ReferenceIdeal.ReadP.val_main_v38_eq m' c).trans (Cert.SLstm.Ref.c_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))),
      (h c).2.2.1.trans ((Cert.ReferenceIdeal.ReadP.val_main_v40_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans (Cert.SLstm.Ref.n_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))),
      (h c).2.2.2.1.trans ((Cert.ReferenceIdeal.ReadP.val_main_v35_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans (Cert.SLstm.Ref.m_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))),
      (h c).2.2.2.2⟩) (Cert.ReferenceIdeal.ValueP.run (F := Ideal) m' ρ')

/-- From memories agreeing on the nineteen arguments, the reference's cell arrays are the kernel's. -/
theorem args_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.SLstm.Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.KernelIdeal.Val.kargs m c := by
  obtain ⟨e0, e1, e2, e3, e4, e5, e6, e7, e8, e9, e10, e11, e12, e13, e14, e15, e16, e17, e18⟩ := hagree
  rw [e0, e1, e2, e3, e4, e5, e6, e7, e8, e9, e10, e11, e12, e13, e14, e15, e16, e17, e18]
  rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Gh (Cert.KernelIdeal.Val.kargs m c), fun c => Gc (Cert.KernelIdeal.Val.kargs m c), fun c => Gn (Cert.KernelIdeal.Val.kargs m c), fun c => Gm (Cert.KernelIdeal.Val.kargs m c),
    Cert.KernelIdeal.Val.run_vals m ρ, ?_⟩
  refine (θ_run Cert.ReferenceIdeal.defs _ _).mono (fun _ h c => ?_) (ref_vals m' ρ')
  have e := args_agree m m' c (hagree c)
  exact ⟨(h c).1.trans (congrArg Gh e), (h c).2.1.trans (congrArg Gc e), (h c).2.2.1.trans (congrArg Gn e), (h c).2.2.2.1.trans (congrArg Gm e), (h c).2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
